-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3x128 : Shape := ⟨3, ![10000, 3, 128]⟩
abbrev S320000x32 : Shape := ⟨2, ![320000, 32]⟩
abbrev S320000x416 : Shape := ⟨2, ![320000, 416]⟩
abbrev S320000x3 : Shape := ⟨2, ![320000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S32x384 : Shape := ⟨2, ![32, 384]⟩
abbrev S416x384 : Shape := ⟨2, ![416, 384]⟩
abbrev S384x384 : Shape := ⟨2, ![384, 384]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3x128 : S_.BroadcastsInDim S10000x3x128 (![] : Fin 0 → Fin S10000x3x128.rank)
  reducesTo_S10000x3x128_S_d0_1_2 : S10000x3x128.ReducesTo [0, 1, 2] S_
  bcast_S_S320000x32 : S_.BroadcastsInDim S320000x32 (![] : Fin 0 → Fin S320000x32.rank)
  reducesTo_S320000x32_S_d0_1 : S320000x32.ReducesTo [0, 1] S_
  bcast_S_S320000x416 : S_.BroadcastsInDim S320000x416 (![] : Fin 0 → Fin S320000x416.rank)
  reducesTo_S320000x416_S_d0_1 : S320000x416.ReducesTo [0, 1] S_
  bcast_S_S320000x3 : S_.BroadcastsInDim S320000x3 (![] : Fin 0 → Fin S320000x3.rank)
  reducesTo_S320000x3_S_d0_1 : S320000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S32x384 : S_.BroadcastsInDim S32x384 (![] : Fin 0 → Fin S32x384.rank)
  reducesTo_S32x384_S_d0_1 : S32x384.ReducesTo [0, 1] S_
  bcast_S_S416x384 : S_.BroadcastsInDim S416x384 (![] : Fin 0 → Fin S416x384.rank)
  reducesTo_S416x384_S_d0_1 : S416x384.ReducesTo [0, 1] S_
  bcast_S_S384x384 : S_.BroadcastsInDim S384x384 (![] : Fin 0 → Fin S384x384.rank)
  reducesTo_S384x384_S_d0_1 : S384x384.ReducesTo [0, 1] S_

variable [Facts]

def fn_part4 {F : FTy → Type} [FloatOps F] (main_arg14 : FVec F S384 .f32) (main_v63 : IVec S_ 1) (main_v67 : IVec S_ 1) : IVec S_ 1 :=
  let main_v68 : IVec S_ 1 := andi main_v63 main_v67
  let main_v69 : FVec F S384 .f32 := Host.absf main_arg14
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  main_v73

def fn_part3 {F : FTy → Type} [FloatOps F] (main_arg11 : FVec F S416x384 .f32) (main_arg12 : FVec F S384 .f32) (main_arg13 : FVec F S384x384 .f32) (main_arg14 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S416x384 .f32 := Host.absf main_arg11
  let main_cst_20 : FVec F S_ .f32 := constant S_ .f32 0x7F800000#32
  let main_v55 : FVec F S416x384 .f32 := broadcastInDim S416x384 ![] bcast_S_S416x384 main_cst_20
  let main_v56 : IVec S416x384 1 := cmpf .olt main_v54 main_v55
  let main_c_21 : IVec S_ 1 := constantI S_ 1 1#1
  let main_v57 : IVec S_ 1 := (fun x v => Host.reduce IntOp.andi x v reducesTo_S416x384_S_d0_1 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384x384 .f32 := Host.absf main_arg13
  let main_cst_24 : FVec F S_ .f32 := constant S_ .f32 0x7F800000#32
  let main_v65 : FVec F S384x384 .f32 := broadcastInDim S384x384 ![] bcast_S_S384x384 main_cst_24
  let main_v66 : IVec S384x384 1 := cmpf .olt main_v64 main_v65
  let main_c_25 : IVec S_ 1 := constantI S_ 1 1#1
  let main_v67 : IVec S_ 1 := (fun x v => Host.reduce IntOp.andi x v reducesTo_S384x384_S_d0_1 h_S_) main_v66 main_c_25
  fn_part4 (F := F) main_arg14 main_v63 main_v67

def fn_part2 {F : FTy → Type} [FloatOps F] (main_arg7 : FVec F S128x384 .f32) (main_arg8 : FVec F S384 .f32) (main_arg9 : FVec F S32x384 .f32) (main_arg10 : FVec F S384 .f32) (main_arg11 : FVec F S416x384 .f32) (main_arg12 : FVec F S384 .f32) (main_arg13 : FVec F S384x384 .f32) (main_arg14 : FVec F S384 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S32x384 .f32 := Host.absf main_arg9
  let main_cst_16 : FVec F S_ .f32 := constant S_ .f32 0x7F800000#32
  let main_v45 : FVec F S32x384 .f32 := broadcastInDim S32x384 ![] bcast_S_S32x384 main_cst_16
  let main_v46 : IVec S32x384 1 := cmpf .olt main_v44 main_v45
  let main_c_17 : IVec S_ 1 := constantI S_ 1 1#1
  let main_v47 : IVec S_ 1 := (fun x v => Host.reduce IntOp.andi x v reducesTo_S32x384_S_d0_1 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_arg11 main_arg12 main_arg13 main_arg14 main_v48 main_v49 main_v50

def fn_part1 {F : FTy → Type} [FloatOps F] (main_arg4 : FVec F S320000x3 .f32) (main_arg5 : FVec F S128x128 .f32) (main_arg6 : FVec F S128 .f32) (main_arg7 : FVec F S128x384 .f32) (main_arg8 : FVec F S384 .f32) (main_arg9 : FVec F S32x384 .f32) (main_arg10 : FVec F S384 .f32) (main_arg11 : FVec F S416x384 .f32) (main_arg12 : FVec F S384 .f32) (main_arg13 : FVec F S384x384 .f32) (main_arg14 : FVec F S384 .f32) (main_v13 : IVec S_ 1) (main_v16 : IVec S320000x416 1) : IVec S_ 1 :=
  let main_c_5 : IVec S_ 1 := constantI S_ 1 1#1
  let main_v17 : IVec S_ 1 := (fun x v => Host.reduce IntOp.andi x v reducesTo_S320000x416_S_d0_1 h_S_) main_v16 main_c_5
  let main_v18 : IVec S_ 1 := andi main_v13 main_v17
  let main_v19 : FVec F S320000x3 .f32 := Host.absf main_arg4
  let main_cst_6 : FVec F S_ .f32 := constant S_ .f32 0x7F800000#32
  let main_v20 : FVec F S320000x3 .f32 := broadcastInDim S320000x3 ![] bcast_S_S320000x3 main_cst_6
  let main_v21 : IVec S320000x3 1 := cmpf .olt main_v19 main_v20
  let main_c_7 : IVec S_ 1 := constantI S_ 1 1#1
  let main_v22 : IVec S_ 1 := (fun x v => Host.reduce IntOp.andi x v reducesTo_S320000x3_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x3x128 .f32) (main_arg2 : FVec F S320000x32 .f32) (main_arg3 : FVec F S320000x416 .f32) (main_arg4 : FVec F S320000x3 .f32) (main_arg5 : FVec F S128x128 .f32) (main_arg6 : FVec F S128 .f32) (main_arg7 : FVec F S128x384 .f32) (main_arg8 : FVec F S384 .f32) (main_arg9 : FVec F S32x384 .f32) (main_arg10 : FVec F S384 .f32) (main_arg11 : FVec F S416x384 .f32) (main_arg12 : FVec F S384 .f32) (main_arg13 : FVec F S384x384 .f32) (main_arg14 : FVec F S384 .f32) (main_arg15 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3x128 .f32 := Host.absf main_arg1
  let main_cst_0 : FVec F S_ .f32 := constant S_ .f32 0x7F800000#32
  let main_v5 : FVec F S10000x3x128 .f32 := broadcastInDim S10000x3x128 ![] bcast_S_S10000x3x128 main_cst_0
  let main_v6 : IVec S10000x3x128 1 := cmpf .olt main_v4 main_v5
  let main_c_1 : IVec S_ 1 := constantI S_ 1 1#1
  let main_v7 : IVec S_ 1 := (fun x v => Host.reduce IntOp.andi x v reducesTo_S10000x3x128_S_d0_1_2 h_S_) main_v6 main_c_1
  let main_v8 : IVec S_ 1 := andi main_v3 main_v7
  let main_v9 : FVec F S320000x32 .f32 := Host.absf main_arg2
  let main_cst_2 : FVec F S_ .f32 := constant S_ .f32 0x7F800000#32
  let main_v10 : FVec F S320000x32 .f32 := broadcastInDim S320000x32 ![] bcast_S_S320000x32 main_cst_2
  let main_v11 : IVec S320000x32 1 := cmpf .olt main_v9 main_v10
  let main_c_3 : IVec S_ 1 := constantI S_ 1 1#1
  let main_v12 : IVec S_ 1 := (fun x v => Host.reduce IntOp.andi x v reducesTo_S320000x32_S_d0_1 h_S_) main_v11 main_c_3
  let main_v13 : IVec S_ 1 := andi main_v8 main_v12
  let main_v14 : FVec F S320000x416 .f32 := Host.absf main_arg3
  let main_cst_4 : FVec F S_ .f32 := constant S_ .f32 0x7F800000#32
  let main_v15 : FVec F S320000x416 .f32 := broadcastInDim S320000x416 ![] bcast_S_S320000x416 main_cst_4
  let main_v16 : IVec S320000x416 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x3x128 : Shape := ⟨3, ![10000, 3, 128]⟩
abbrev S320000x32 : Shape := ⟨2, ![320000, 32]⟩
abbrev S320000x416 : Shape := ⟨2, ![320000, 416]⟩
abbrev S320000x3 : Shape := ⟨2, ![320000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S32x384 : Shape := ⟨2, ![32, 384]⟩
abbrev S416x384 : Shape := ⟨2, ![416, 384]⟩
abbrev S384x384 : Shape := ⟨2, ![384, 384]⟩
abbrev S2x320000 : Shape := ⟨2, ![2, 320000]⟩
abbrev S1x128 : Shape := ⟨2, ![1, 128]⟩
abbrev S1x384 : Shape := ⟨2, ![1, 384]⟩
abbrev S10000x384 : Shape := ⟨2, ![10000, 384]⟩
abbrev S1000x128 : Shape := ⟨2, ![1000, 128]⟩
abbrev S1000x384 : Shape := ⟨2, ![1000, 384]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x384 : Shape := ⟨2, ![320000, 384]⟩
abbrev S320000x128 : Shape := ⟨2, ![320000, 128]⟩
abbrev S1280x32 : Shape := ⟨2, ![1280, 32]⟩
abbrev S1280x416 : Shape := ⟨2, ![1280, 416]⟩
abbrev S1280x384 : Shape := ⟨2, ![1280, 384]⟩
abbrev S1280x3 : Shape := ⟨2, ![1280, 3]⟩
abbrev S1280x128 : Shape := ⟨2, ![1280, 128]⟩
abbrev S1280x1 : Shape := ⟨2, ![1280, 1]⟩

abbrev nBuf : Space → Nat
  | .hbm => 56
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S320000x32, .f32⟩
  | .hbm, ⟨3, _⟩ => ⟨S320000x416, .f32⟩
  | .hbm, ⟨4, _⟩ => ⟨S320000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S32x384, .f32⟩
  | .hbm, ⟨10, _⟩ => ⟨S384, .f32⟩
  | .hbm, ⟨11, _⟩ => ⟨S416x384, .f32⟩
  | .hbm, ⟨12, _⟩ => ⟨S384, .f32⟩
  | .hbm, ⟨13, _⟩ => ⟨S384x384, .f32⟩
  | .hbm, ⟨14, _⟩ => ⟨S384, .f32⟩
  | .hbm, ⟨15, _⟩ => ⟨S2x320000, .i32⟩
  | .hbm, ⟨16, _⟩ => ⟨S1x128, .f32⟩
  | .hbm, ⟨17, _⟩ => ⟨S1x384, .f32⟩
  | .hbm, ⟨18, _⟩ => ⟨S1x384, .f32⟩
  | .hbm, ⟨19, _⟩ => ⟨S1x384, .f32⟩
  | .hbm, ⟨20, _⟩ => ⟨S1x384, .f32⟩
  | .hbm, ⟨21, _⟩ => ⟨S10000x384, .f32⟩
  | .hbm, ⟨22, _⟩ => ⟨S1x320000, .i32⟩
  | .hbm, ⟨23, _⟩ => ⟨S320000, .i32⟩
  | .hbm, ⟨24, _⟩ => ⟨S1x320000, .i32⟩
  | .hbm, ⟨25, _⟩ => ⟨S320000, .i32⟩
  | .hbm, ⟨26, _⟩ => ⟨S10000x384, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x384, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000x384, .f32⟩
  | .hbm, ⟨45, _⟩ => ⟨S320000x128, .f32⟩
  | .hbm, ⟨46, _⟩ => ⟨S320000x384, .f32⟩
  | .hbm, ⟨47, _⟩ => ⟨S_, .f32⟩
  | .hbm, ⟨48, _⟩ => ⟨S10000x128, .f32⟩
  | .hbm, ⟨49, _⟩ => ⟨S320000x1, .i32⟩
  | .hbm, ⟨50, _⟩ => ⟨S10000x128, .f32⟩
  | .hbm, ⟨51, _⟩ => ⟨S_, .f32⟩
  | .hbm, ⟨52, _⟩ => ⟨S10000x384, .f32⟩
  | .hbm, ⟨53, _⟩ => ⟨S320000x1, .i32⟩
  | .hbm, ⟨54, _⟩ => ⟨S10000x384, .f32⟩
  | .hbm, ⟨55, _⟩ => ⟨S10000x3x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S1000x384, .f32⟩
  | .local _ .vmem, ⟨7, _⟩ => ⟨S1000x384, .f32⟩
  | .local _ .vmem, ⟨8, _⟩ => ⟨S1280x32, .f32⟩
  | .local _ .vmem, ⟨9, _⟩ => ⟨S1280x32, .f32⟩
  | .local _ .vmem, ⟨10, _⟩ => ⟨S1280x416, .f32⟩
  | .local _ .vmem, ⟨11, _⟩ => ⟨S1280x416, .f32⟩
  | .local _ .vmem, ⟨12, _⟩ => ⟨S1280x384, .f32⟩
  | .local _ .vmem, ⟨13, _⟩ => ⟨S1280x384, .f32⟩
  | .local _ .vmem, ⟨14, _⟩ => ⟨S1280x384, .f32⟩
  | .local _ .vmem, ⟨15, _⟩ => ⟨S1280x384, .f32⟩
  | .local _ .vmem, ⟨16, _⟩ => ⟨S1280x3, .f32⟩
  | .local _ .vmem, ⟨17, _⟩ => ⟨S1280x3, .f32⟩
  | .local _ .vmem, ⟨18, _⟩ => ⟨S32x384, .f32⟩
  | .local _ .vmem, ⟨19, _⟩ => ⟨S1x384, .f32⟩
  | .local _ .vmem, ⟨20, _⟩ => ⟨S416x384, .f32⟩
  | .local _ .vmem, ⟨21, _⟩ => ⟨S1x384, .f32⟩
  | .local _ .vmem, ⟨22, _⟩ => ⟨S384x384, .f32⟩
  | .local _ .vmem, ⟨23, _⟩ => ⟨S1x384, .f32⟩
  | .local _ .vmem, ⟨24, _⟩ => ⟨S1280x128, .f32⟩
  | .local _ .vmem, ⟨25, _⟩ => ⟨S1280x128, .f32⟩
  | .local _ .vmem, ⟨26, _⟩ => ⟨S1280x384, .f32⟩
  | .local _ .vmem, ⟨27, _⟩ => ⟨S1280x384, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc1_sem12_0 : DmaSem sig := 26
abbrev cc1_sem12_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x416 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1280x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S416x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S384x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1280x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1280x384 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S128_S1x128 : S128.ShapeCasts S1x128
  shapeCasts_S384_S1x384 : S384.ShapeCasts S1x384
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S1000x384_S1000x384_0_0 : ∀ a, (![0, 0] : Fin 2 → Nat) a + S1000x384.size a ≤ S1000x384.size a
  h_S1000x384 : 0 < S1000x384.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S10000x3x128_S10000x384 : S10000x3x128.ShapeCasts S10000x384
  bcast_S_S320000 : S_.BroadcastsInDim S320000 (![] : Fin 0 → Fin S320000.rank)
  bcast_S320000_S320000x1_0 : S320000.BroadcastsInDim S320000x1 (![0] : Fin 1 → Fin S320000x1.rank)
  inb_S1280x32_S1280x32_0_0 : ∀ a, (![0, 0] : Fin 2 → Nat) a + S1280x32.size a ≤ S1280x32.size a
  h_S1280x32 : 0 < S1280x32.numel
  inb_S32x384_S32x384_0_0 : ∀ a, (![0, 0] : Fin 2 → Nat) a + S32x384.size a ≤ S32x384.size a
  h_S32x384 : 0 < S32x384.numel
  broadcasts_S1x384_S1280x384 : S1x384.Broadcasts S1280x384
  inb_S1280x416_S1280x416_0_0 : ∀ a, (![0, 0] : Fin 2 → Nat) a + S1280x416.size a ≤ S1280x416.size a
  h_S1280x416 : 0 < S1280x416.numel
  inb_S416x384_S416x384_0_0 : ∀ a, (![0, 0] : Fin 2 → Nat) a + S416x384.size a ≤ S416x384.size a
  h_S416x384 : 0 < S416x384.numel
  inb_S384x384_S384x384_0_0 : ∀ a, (![0, 0] : Fin 2 → Nat) a + S384x384.size a ≤ S384x384.size a
  h_S384x384 : 0 < S384x384.numel
  inb_S1280x384_S1280x384_0_0 : ∀ a, (![0, 0] : Fin 2 → Nat) a + S1280x384.size a ≤ S1280x384.size a
  h_S1280x384 : 0 < S1280x384.numel
  shapeCasts_S1280x384_S1280x384 : S1280x384.ShapeCasts S1280x384
  slices_S1280x384_o0_0_S1280x128 : S1280x384.Slices ![0, 0] S1280x128
  slices_S1280x384_o0_128_S1280x128 : S1280x384.Slices ![0, 128] S1280x128
  slices_S1280x384_o0_256_S1280x128 : S1280x384.Slices ![0, 256] S1280x128
  inb_S1280x3_S1280x3_0_0 : ∀ a, (![0, 0] : Fin 2 → Nat) a + S1280x3.size a ≤ S1280x3.size a
  h_S1280x3 : 0 < S1280x3.numel
  slices_S1280x3_o0_0_S1280x1 : S1280x3.Slices ![0, 0] S1280x1
  slices_S1280x3_o0_1_S1280x1 : S1280x3.Slices ![0, 1] S1280x1
  slices_S1280x3_o0_2_S1280x1 : S1280x3.Slices ![0, 2] S1280x1
  broadcasts_S1280x1_S1280x128 : S1280x1.Broadcasts S1280x128
  inb_S1280x128_S1280x128_0_0 : ∀ a, (![0, 0] : Fin 2 → Nat) a + S1280x128.size a ≤ S1280x128.size a
  h_S1280x128 : 0 < S1280x128.numel
  inb_S1280x384_S1280x128_0_0 : ∀ a, (![0, 0] : Fin 2 → Nat) a + S1280x128.size a ≤ S1280x384.size a
  inb_S1280x384_S1280x128_0_128 : ∀ a, (![0, 128] : Fin 2 → Nat) a + S1280x128.size a ≤ S1280x384.size a
  inb_S1280x384_S1280x128_0_256 : ∀ a, (![0, 256] : Fin 2 → Nat) a + S1280x128.size a ≤ S1280x384.size a
  bcast_S_S10000x128 : S_.BroadcastsInDim S10000x128 (![] : Fin 0 → Fin S10000x128.rank)
  bcast_S_S10000x384 : S_.BroadcastsInDim S10000x384 (![] : Fin 0 → Fin S10000x384.rank)
  shapeCasts_S10000x384_S10000x3x128 : S10000x384.ShapeCasts S10000x3x128
  dot_S1000x128_S128x128_S1000x128_1_0_0_1_n_n_wf : DotDims.WF S1000x128 S128x128 S1000x128 [1] [0] [0] [1] [] []
  dot_S1000x128_S128x384_S1000x384_1_0_0_1_n_n_wf : DotDims.WF S1000x128 S128x384 S1000x384 [1] [0] [0] [1] [] []
  gather_S10000x384_S320000x1_S320000x384_1_0_n_n_0_1_1384_wf : GatherDims.WF S10000x384 S320000x1 S320000x384 [1] [0] [] [0] [] 1 ![1, 384]
  dot_S1280x32_S32x384_S1280x384_1_0_0_1_n_n_wf : DotDims.WF S1280x32 S32x384 S1280x384 [1] [0] [0] [1] [] []
  dot_S1280x416_S416x384_S1280x384_1_0_0_1_n_n_wf : DotDims.WF S1280x416 S416x384 S1280x384 [1] [0] [0] [1] [] []
  dot_S1280x384_S384x384_S1280x384_1_0_0_1_n_n_wf : DotDims.WF S1280x384 S384x384 S1280x384 [1] [0] [0] [1] [] []
  scatter_S10000x128_S320000x1_S320000x128_1_0_0_1_wf : ScatterDims.WF S10000x128 S320000x1 S320000x128 [1] [0] [0] 1
  scatter_S10000x384_S320000x1_S320000x384_1_0_0_1_wf : ScatterDims.WF S10000x384 S320000x1 S320000x384 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x384.size a ≤ S10000x384.size a
  hwx0_5 : ∀ i : grid0.Coords, EltTy.bits .f32 = 32 ∨ (Rect.block (s := S10000x384) S1000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x32.size a ≤ S320000x32.size a
  hwx1_0 : ∀ i : grid1.Coords, EltTy.bits .f32 = 32 ∨ (Rect.block (s := S320000x32) S1280x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x416.size a ≤ S320000x416.size a
  hwx1_1 : ∀ i : grid1.Coords, EltTy.bits .f32 = 32 ∨ (Rect.block (s := S320000x416) S1280x416.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x384.size a ≤ S320000x384.size a
  hwx1_2 : ∀ i : grid1.Coords, EltTy.bits .f32 = 32 ∨ (Rect.block (s := S320000x384) S1280x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x384.size a ≤ S320000x384.size a
  hwx1_3 : ∀ i : grid1.Coords, EltTy.bits .f32 = 32 ∨ (Rect.block (s := S320000x384) S1280x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x3.size a ≤ S320000x3.size a
  hwx1_4 : ∀ i : grid1.Coords, EltTy.bits .f32 = 32 ∨ (Rect.block (s := S320000x3) S1280x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x384.size a ≤ S32x384.size a
  hwx1_5 : ∀ i : grid1.Coords, EltTy.bits .f32 = 32 ∨ (Rect.block (s := S32x384) S32x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S416x384.size a ≤ S416x384.size a
  hwx1_7 : ∀ i : grid1.Coords, EltTy.bits .f32 = 32 ∨ (Rect.block (s := S416x384) S416x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x384.size a ≤ S1x384.size a
  hwx1_8 : ∀ i : grid1.Coords, EltTy.bits .f32 = 32 ∨ (Rect.block (s := S1x384) S1x384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S384x384.size a ≤ S384x384.size a
  hwx1_9 : ∀ i : grid1.Coords, EltTy.bits .f32 = 32 ∨ (Rect.block (s := S384x384) S384x384.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x384.size a ≤ S1x384.size a
  hwx1_10 : ∀ i : grid1.Coords, EltTy.bits .f32 = 32 ∨ (Rect.block (s := S1x384) S1x384.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1280x128.size a ≤ S320000x128.size a
  hwx1_11 : ∀ i : grid1.Coords, EltTy.bits .f32 = 32 ∨ (Rect.block (s := S320000x128) S1280x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1280x384.size a ≤ S320000x384.size a
  hwx1_12 : ∀ i : grid1.Coords, EltTy.bits .f32 = 32 ∨ (Rect.block (s := S320000x384) S1280x384.size (cc1_transform_12 i) (hinb1_12 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def gather_S10000x384_S320000x1_S320000x384_1_0_n_n_0_1_1384 : GatherDims S10000x384 S320000x1 S320000x384 where
  offsetDims := [1]
  collapsedSliceDims := [0]
  operandBatchingDims := []
  startIndicesBatchingDims := []
  startIndexMap := [0]
  indexVectorDim := 1
  sliceSizes := ![1, 384]
  wf := gather_S10000x384_S320000x1_S320000x384_1_0_n_n_0_1_1384_wf
def dot_S1280x32_S32x384_S1280x384_1_0_0_1_n_n : DotDims S1280x32 S32x384 S1280x384 where
  lhsContracting := [1]
  rhsContracting := [0]
  lhsNonContracting := [0]
  rhsNonContracting := [1]
  lhsBatch := []
  rhsBatch := []
  wf := dot_S1280x32_S32x384_S1280x384_1_0_0_1_n_n_wf
def dot_S1280x416_S416x384_S1280x384_1_0_0_1_n_n : DotDims S1280x416 S416x384 S1280x384 where
  lhsContracting := [1]
  rhsContracting := [0]
  lhsNonContracting := [0]
  rhsNonContracting := [1]
  lhsBatch := []
  rhsBatch := []
  wf := dot_S1280x416_S416x384_S1280x384_1_0_0_1_n_n_wf
def dot_S1280x384_S384x384_S1280x384_1_0_0_1_n_n : DotDims S1280x384 S384x384 S1280x384 where
  lhsContracting := [1]
  rhsContracting := [0]
  lhsNonContracting := [0]
  rhsNonContracting := [1]
  lhsBatch := []
  rhsBatch := []
  wf := dot_S1280x384_S384x384_S1280x384_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000x384_S320000x1_S320000x384_1_0_0_1 : ScatterDims S10000x384 S320000x1 S320000x384 where
  updateWindowDims := [1]
  insertedWindowDims := [0]
  scatterDimsToOperandDims := [0]
  indexVectorDim := 1
  wf := scatter_S10000x384_S320000x1_S320000x384_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S1280x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1280x416.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1280x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1280x384.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1280x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S32x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S416x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S384x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25_0) S1280x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v25_1) S1280x384.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x3x128 : Shape := ⟨3, ![10000, 3, 128]⟩
abbrev S320000x32 : Shape := ⟨2, ![320000, 32]⟩
abbrev S320000x416 : Shape := ⟨2, ![320000, 416]⟩
abbrev S320000x3 : Shape := ⟨2, ![320000, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S32x384 : Shape := ⟨2, ![32, 384]⟩
abbrev S416x384 : Shape := ⟨2, ![416, 384]⟩
abbrev S384x384 : Shape := ⟨2, ![384, 384]⟩
abbrev S2x320000 : Shape := ⟨2, ![2, 320000]⟩
abbrev S1x128 : Shape := ⟨2, ![1, 128]⟩
abbrev S_ : Shape := ⟨0, ![]⟩
abbrev S10000x384 : Shape := ⟨2, ![10000, 384]⟩
abbrev S1x384 : Shape := ⟨2, ![1, 384]⟩
abbrev S320000x384 : Shape := ⟨2, ![320000, 384]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S320000x3x128 : Shape := ⟨3, ![320000, 3, 128]⟩
abbrev S320000x1x128 : Shape := ⟨3, ![320000, 1, 128]⟩
abbrev S320000x3x1 : Shape := ⟨3, ![320000, 3, 1]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S320000x32, .f32⟩
  | .hbm, ⟨3, _⟩ => ⟨S320000x416, .f32⟩
  | .hbm, ⟨4, _⟩ => ⟨S320000x3, .f32⟩
  | .hbm, ⟨5, _⟩ => ⟨S128x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S32x384, .f32⟩
  | .hbm, ⟨10, _⟩ => ⟨S384, .f32⟩
  | .hbm, ⟨11, _⟩ => ⟨S416x384, .f32⟩
  | .hbm, ⟨12, _⟩ => ⟨S384, .f32⟩
  | .hbm, ⟨13, _⟩ => ⟨S384x384, .f32⟩
  | .hbm, ⟨14, _⟩ => ⟨S384, .f32⟩
  | .hbm, ⟨15, _⟩ => ⟨S2x320000, .i32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x384, .f32⟩
  | .hbm, ⟨30, _⟩ => ⟨S1x384, .f32⟩
  | .hbm, ⟨31, _⟩ => ⟨S10000x384, .f32⟩
  | .hbm, ⟨32, _⟩ => ⟨S10000x384, .f32⟩
  | .hbm, ⟨33, _⟩ => ⟨S320000x384, .f32⟩
  | .hbm, ⟨34, _⟩ => ⟨S1x384, .f32⟩
  | .hbm, ⟨35, _⟩ => ⟨S320000x384, .f32⟩
  | .hbm, ⟨36, _⟩ => ⟨S320000x384, .f32⟩
  | .hbm, ⟨37, _⟩ => ⟨S320000x384, .f32⟩
  | .hbm, ⟨38, _⟩ => ⟨S1x384, .f32⟩
  | .hbm, ⟨39, _⟩ => ⟨S320000x384, .f32⟩
  | .hbm, ⟨40, _⟩ => ⟨S320000x384, .f32⟩
  | .hbm, ⟨41, _⟩ => ⟨S320000x384, .f32⟩
  | .hbm, ⟨42, _⟩ => ⟨S320000x384, .f32⟩
  | .hbm, ⟨43, _⟩ => ⟨S_, .f32⟩
  | .hbm, ⟨44, _⟩ => ⟨S320000x384, .f32⟩
  | .hbm, ⟨45, _⟩ => ⟨S320000x384, .f32⟩
  | .hbm, ⟨46, _⟩ => ⟨S_, .f32⟩
  | .hbm, ⟨47, _⟩ => ⟨S320000x384, .f32⟩
  | .hbm, ⟨48, _⟩ => ⟨S320000x384, .f32⟩
  | .hbm, ⟨49, _⟩ => ⟨S320000x384, .f32⟩
  | .hbm, ⟨50, _⟩ => ⟨S320000x384, .f32⟩
  | .hbm, ⟨51, _⟩ => ⟨S1x384, .f32⟩
  | .hbm, ⟨52, _⟩ => ⟨S320000x384, .f32⟩
  | .hbm, ⟨53, _⟩ => ⟨S320000x384, .f32⟩
  | .hbm, ⟨54, _⟩ => ⟨S320000x384, .f32⟩
  | .hbm, ⟨55, _⟩ => ⟨S1x320000, .i32⟩
  | .hbm, ⟨56, _⟩ => ⟨S320000, .i32⟩
  | .hbm, ⟨57, _⟩ => ⟨S1x320000, .i32⟩
  | .hbm, ⟨58, _⟩ => ⟨S320000, .i32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x384, .f32⟩
  | .hbm, ⟨68, _⟩ => ⟨S320000x384, .f32⟩
  | .hbm, ⟨69, _⟩ => ⟨S320000x128, .f32⟩
  | .hbm, ⟨70, _⟩ => ⟨S320000x128, .f32⟩
  | .hbm, ⟨71, _⟩ => ⟨S320000x128, .f32⟩
  | .hbm, ⟨72, _⟩ => ⟨S_, .f32⟩
  | .hbm, ⟨73, _⟩ => ⟨S320000x128, .f32⟩
  | .hbm, ⟨74, _⟩ => ⟨S320000x128, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000x3x128, .f32⟩
  | .hbm, ⟨84, _⟩ => ⟨S320000x1x128, .f32⟩
  | .hbm, ⟨85, _⟩ => ⟨S320000x3x128, .f32⟩
  | .hbm, ⟨86, _⟩ => ⟨S320000x3x128, .f32⟩
  | .hbm, ⟨87, _⟩ => ⟨S320000x1x128, .f32⟩
  | .hbm, ⟨88, _⟩ => ⟨S320000x3x1, .f32⟩
  | .hbm, ⟨89, _⟩ => ⟨S320000x3x128, .f32⟩
  | .hbm, ⟨90, _⟩ => ⟨S320000x3x128, .f32⟩
  | .hbm, ⟨91, _⟩ => ⟨S320000x3x128, .f32⟩
  | .hbm, ⟨92, _⟩ => ⟨S320000x3x128, .f32⟩
  | .hbm, ⟨93, _⟩ => ⟨S_, .f32⟩
  | .hbm, ⟨94, _⟩ => ⟨S320000x3x128, .f32⟩
  | .hbm, ⟨95, _⟩ => ⟨S320000x3x128, .f32⟩
  | .hbm, ⟨96, _⟩ => ⟨S_, .f32⟩
  | .hbm, ⟨97, _⟩ => ⟨S10000x128, .f32⟩
  | .hbm, ⟨98, _⟩ => ⟨S320000x1, .i32⟩
  | .hbm, ⟨99, _⟩ => ⟨S10000x128, .f32⟩
  | .hbm, ⟨100, _⟩ => ⟨S_, .f32⟩
  | .hbm, ⟨101, _⟩ => ⟨S10000x3x128, .f32⟩
  | .hbm, ⟨102, _⟩ => ⟨S320000x1, .i32⟩
  | .hbm, ⟨103, _⟩ => ⟨S10000x3x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c : Ref sig .tc := ⟨.hbm, 59, rfl⟩
abbrev main_v27 : Ref sig .tc := ⟨.hbm, 60, rfl⟩
abbrev main_v28 : Ref sig .tc := ⟨.hbm, 61, rfl⟩
abbrev main_c_0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst : Ref sig .tc := ⟨.hbm, 72, rfl⟩
abbrev main_v38 : Ref sig .tc := ⟨.hbm, 73, rfl⟩
abbrev main_v39 : Ref sig .tc := ⟨.hbm, 74, rfl⟩
abbrev main_c_1 : Ref sig .tc := ⟨.hbm, 75, rfl⟩
abbrev main_v40 : Ref sig .tc := ⟨.hbm, 76, rfl⟩
abbrev main_v41 : Ref sig .tc := ⟨.hbm, 77, rfl⟩
abbrev main_c_2 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_3 : Ref sig .tc := ⟨.hbm, 93, rfl⟩
abbrev main_v56 : Ref sig .tc := ⟨.hbm, 94, rfl⟩
abbrev main_v57 : Ref sig .tc := ⟨.hbm, 95, rfl⟩
abbrev main_cst_4 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  bcast_S1x384_S320000x384_0_1 : S1x384.BroadcastsInDim S320000x384 (![0, 1] : Fin 2 → Fin S320000x384.rank)
  bcast_S_S320000x384 : S_.BroadcastsInDim S320000x384 (![] : Fin 0 → Fin S320000x384.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S_S320000x128 : S_.BroadcastsInDim S320000x128 (![] : Fin 0 → Fin S320000x128.rank)
  bcast_S320000x128_S320000x1x128_0_2 : S320000x128.BroadcastsInDim S320000x1x128 (![0, 2] : Fin 2 → Fin S320000x1x128.rank)
  bcast_S320000x1x128_S320000x3x128_0_1_2 : S320000x1x128.BroadcastsInDim S320000x3x128 (![0, 1, 2] : Fin 3 → Fin S320000x3x128.rank)
  bcast_S320000x3_S320000x3x1_0_1 : S320000x3.BroadcastsInDim S320000x3x1 (![0, 1] : Fin 2 → Fin S320000x3x1.rank)
  bcast_S320000x3x1_S320000x3x128_0_1_2 : S320000x3x1.BroadcastsInDim S320000x3x128 (![0, 1, 2] : Fin 3 → Fin S320000x3x128.rank)
  bcast_S_S320000x3x128 : S_.BroadcastsInDim S320000x3x128 (![] : Fin 0 → Fin S320000x3x128.rank)
  bcast_S_S10000x3x128 : S_.BroadcastsInDim S10000x3x128 (![] : Fin 0 → Fin S10000x3x128.rank)
  dot_S10000x128_S128x128_S10000x128_1_0_0_1_n_n_wf : DotDims.WF S10000x128 S128x128 S10000x128 [1] [0] [0] [1] [] []
  dot_S10000x128_S128x384_S10000x384_1_0_0_1_n_n_wf : DotDims.WF S10000x128 S128x384 S10000x384 [1] [0] [0] [1] [] []
  dot_S320000x32_S32x384_S320000x384_1_0_0_1_n_n_wf : DotDims.WF S320000x32 S32x384 S320000x384 [1] [0] [0] [1] [] []
  dot_S320000x416_S416x384_S320000x384_1_0_0_1_n_n_wf : DotDims.WF S320000x416 S416x384 S320000x384 [1] [0] [0] [1] [] []
  dot_S320000x384_S384x384_S320000x384_1_0_0_1_n_n_wf : DotDims.WF S320000x384 S384x384 S320000x384 [1] [0] [0] [1] [] []
  gather_S10000x384_S320000x1_S320000x384_1_0_n_n_0_1_1384_wf : GatherDims.WF S10000x384 S320000x1 S320000x384 [1] [0] [] [0] [] 1 ![1, 384]
  gather_S10000x3x128_S320000x1_S320000x3x128_12_0_n_n_0_1_13128_wf : GatherDims.WF S10000x3x128 S320000x1 S320000x3x128 [1, 2] [0] [] [0] [] 1 ![1, 3, 128]
  scatter_S10000x128_S320000x1_S320000x128_1_0_0_1_wf : ScatterDims.WF S10000x128 S320000x1 S320000x128 [1] [0] [0] 1
  scatter_S10000x3x128_S320000x1_S320000x3x128_12_0_0_1_wf : ScatterDims.WF S10000x3x128 S320000x1 S320000x3x128 [1, 2] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S320000x32_S32x384_S320000x384_1_0_0_1_n_n : DotDims S320000x32 S32x384 S320000x384 where
  lhsContracting := [1]
  rhsContracting := [0]
  lhsNonContracting := [0]
  rhsNonContracting := [1]
  lhsBatch := []
  rhsBatch := []
  wf := dot_S320000x32_S32x384_S320000x384_1_0_0_1_n_n_wf
def dot_S320000x416_S416x384_S320000x384_1_0_0_1_n_n : DotDims S320000x416 S416x384 S320000x384 where
  lhsContracting := [1]
  rhsContracting := [0]
  lhsNonContracting := [0]
  rhsNonContracting := [1]
  lhsBatch := []
  rhsBatch := []
  wf := dot_S320000x416_S416x384_S320000x384_1_0_0_1_n_n_wf
def dot_S320000x384_S384x384_S320000x384_1_0_0_1_n_n : DotDims S320000x384 S384x384 S320000x384 where
  lhsContracting := [1]
  rhsContracting := [0]
  lhsNonContracting := [0]
  rhsNonContracting := [1]
  lhsBatch := []
  rhsBatch := []
  wf := dot_S320000x384_S384x384_S320000x384_1_0_0_1_n_n_wf
def gather_S10000x384_S320000x1_S320000x384_1_0_n_n_0_1_1384 : GatherDims S10000x384 S320000x1 S320000x384 where
  offsetDims := [1]
  collapsedSliceDims := [0]
  operandBatchingDims := []
  startIndicesBatchingDims := []
  startIndexMap := [0]
  indexVectorDim := 1
  sliceSizes := ![1, 384]
  wf := gather_S10000x384_S320000x1_S320000x384_1_0_n_n_0_1_1384_wf
def gather_S10000x3x128_S320000x1_S320000x3x128_12_0_n_n_0_1_13128 : GatherDims S10000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S10000x3x128_S320000x1_S320000x3x128_12_0_n_n_0_1_13128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000x3x128_S320000x1_S320000x3x128_12_0_0_1 : ScatterDims S10000x3x128 S320000x1 S320000x3x128 where
  updateWindowDims := [1, 2]
  insertedWindowDims := [0]
  scatterDimsToOperandDims := [0]
  indexVectorDim := 1
  wf := scatter_S10000x3x128_S320000x1_S320000x3x128_12_0_0_1_wf

class Facts : Prop extends Facts₀ where

variable [Facts]
-- ==== Proof.Spec.lean ====
/-
  The mathematics that both programs compute, on extended reals, written once and over plain coordinates.

  A node has a feature row of 128 numbers; an edge has 32 radial numbers, 416 weight numbers and a direction in
  three coordinates, and runs from a source node to a target node.

  * `silu z = z · σ(z)`, with `σ` the logistic function on the extended reals.
  * `affine a W b` is one row of a dense layer: `(∑ k, a k · W k j) + b j`.
  * `nodeRow` is the node projection: two dense layers with a `silu` between them, 128 → 128 → 384.
  * `gateRow` is an edge's gate, 384 numbers: the radial layer (32 → 384) times the two-layer weight network
    (416 → 384 → 384, `silu` between).
  * `msgRow` is the edge's message: the source node's projected row times the gate, entry by entry.
  * The message's first third is the scalar message. Its second third, scaled by the word for 1/√3, multiplies the
    source node's vector feature; its last third multiplies the edge direction; their sum, scaled by the word for
    1/√128, is the vector message (`vecEntry`), for each of the three space coordinates.

  Every product and sum is written in the order in which both programs apply it, so no law of arithmetic is needed
  to match either program to these functions: only the reading of each operation at an index.
-/
import Idealize.ShloMosaic.PureOps.Ideal
import Idealize.ShloMosaic.Lib.ValueIdx

noncomputable section

namespace Cert.Msg

open Idealize.ShloMosaic Idealize.ShloMosaic.ValueIdx

/-- The binary32 word nearest 1/√3, as the real number it denotes. Both programs multiply by this same word. -/
abbrev cThird : EReal := Ideal.ofBits .f32 0x3F13CD3A#32
/-- The binary32 word nearest 1/√128, as the real number it denotes. Both programs multiply by this same word. -/
abbrev cHid : EReal := Ideal.ofBits .f32 0x3DB504F3#32

/-- `z · σ(z)`. -/
def silu (z : EReal) : EReal := z * Ideal.logistic z

/-- One row of a dense layer at output column `j`: `(∑ k, a k · W k j) + b j`. -/
def affine {K N : ℕ} (a : Fin K → EReal) (W : Fin K → Fin N → EReal) (b : Fin N → EReal) (j : Fin N) : EReal :=
  (∑ k : Fin K, a k * W k j) + b j

/-- A node's projected row: `affine (silu ∘ affine x W₁ b₁) W₂ b₂`. -/
def nodeRow (xr : Fin 128 → EReal) (W1 : Fin 128 → Fin 128 → EReal) (b1 : Fin 128 → EReal)
    (W2 : Fin 128 → Fin 384 → EReal) (b2 : Fin 384 → EReal) (j : Fin 384) : EReal :=
  affine (fun k => silu (affine xr W1 b1 k)) W2 b2 j

/-- An edge's gate: the radial layer times the weight network, at column `q`. -/
def gateRow (rbf : Fin 32 → EReal) (wt : Fin 416 → EReal) (Wr : Fin 32 → Fin 384 → EReal) (br : Fin 384 → EReal)
    (Wi1 : Fin 416 → Fin 384 → EReal) (bi1 : Fin 384 → EReal) (Wi2 : Fin 384 → Fin 384 → EReal) (bi2 : Fin 384 → EReal)
    (q : Fin 384) : EReal :=
  affine rbf Wr br q * affine (fun k => silu (affine wt Wi1 bi1 k)) Wi2 bi2 q

/-- An edge's message: the source node's projected row times the gate. -/
def msgRow (xs : Fin 384 → EReal) (rbf : Fin 32 → EReal) (wt : Fin 416 → EReal) (Wr : Fin 32 → Fin 384 → EReal)
    (br : Fin 384 → EReal) (Wi1 : Fin 416 → Fin 384 → EReal) (bi1 : Fin 384 → EReal) (Wi2 : Fin 384 → Fin 384 → EReal)
    (bi2 : Fin 384 → EReal) (q : Fin 384) : EReal :=
  xs q * gateRow rbf wt Wr br Wi1 bi1 Wi2 bi2 q

/-- Column `h` of the message's first, second and last third. -/
abbrev third0 (h : Fin 128) : Fin 384 := ⟨h.val, by omega⟩
abbrev third1 (h : Fin 128) : Fin 384 := ⟨128 + h.val, by omega⟩
abbrev third2 (h : Fin 128) : Fin 384 := ⟨256 + h.val, by omega⟩
/-- Column `h` of space coordinate `k` in a row of 3 × 128 numbers laid flat. -/
abbrev flat3 (k : Fin 3) (h : Fin 128) : Fin 384 := ⟨k.val * 128 + h.val, by omega⟩

/-- The vector message of an edge at one space coordinate, column `h`: from the edge's message row `mr`, the
    source node's vector feature `v` at that coordinate and column, and the edge direction's coordinate `d`. -/
def vecEntry (mr : Fin 384 → EReal) (v : EReal) (d : EReal) (h : Fin 128) : EReal :=
  (v * (mr (third1 h) * cThird) + mr (third2 h) * d) * cHid

/-! ## The same, array by array

Arrays are functions of an index over a literal shape: `A2 M N` is an M × N array, `A3 M N P` an M × N × P one.
A bias is passed as a plain row, since the two programs lay it out differently. -/

abbrev A2 (M N : ℕ) : Type := (⟨2, ![M, N]⟩ : Shape).Idx → EReal
abbrev A3 (M N P : ℕ) : Type := (⟨3, ![M, N, P]⟩ : Shape).Idx → EReal

/-- Row `r` of a matrix. -/
abbrev row {M N : ℕ} (A : A2 M N) (r : Fin M) : Fin N → EReal := fun q => A (ix2 r q)
/-- A matrix by its two coordinates. -/
abbrev mat {M N : ℕ} (A : A2 M N) : Fin M → Fin N → EReal := fun r q => A (ix2 r q)

/-- Every node's projected row. -/
def nodeArr (x : A2 10000 128) (W1 : A2 128 128) (b1 : Fin 128 → EReal) (W2 : A2 128 384) (b2 : Fin 384 → EReal) :
    A2 10000 384 :=
  fun i => nodeRow (row x (i 0)) (mat W1) b1 (mat W2) b2 (i 1)

/-- Every edge's message, from the source nodes' projected rows `xs` (one row per edge). -/
def msgArr (xs : A2 320000 384) (rbf : A2 320000 32) (wt : A2 320000 416) (Wr : A2 32 384) (br : Fin 384 → EReal)
    (Wi1 : A2 416 384) (bi1 : Fin 384 → EReal) (Wi2 : A2 384 384) (bi2 : Fin 384 → EReal) : A2 320000 384 :=
  fun i => msgRow (row xs (i 0)) (row rbf (i 0)) (row wt (i 0)) (mat Wr) br (mat Wi1) bi1 (mat Wi2) bi2 (i 1)

/-- The scalar messages: the first third of every message. -/
def scalArr (M : A2 320000 384) : A2 320000 128 := fun i => M (ix2 (i 0) (third0 (i 1)))

/-- The vector messages with the three space coordinates laid flat in one row of 384: column `q` is space
    coordinate `q / 128`, column `q % 128`. `vs` is the source nodes' vector features, flat, one row per edge. -/
def vecFlat (M : A2 320000 384) (vs : A2 320000 384) (ev : A2 320000 3) : A2 320000 384 :=
  fun i => vecEntry (row M (i 0)) (vs i) (ev (ix2 (i 0) ⟨(i 1).val / 128, by have h : (i 1).val < 384 := idx2_lt1 i; omega⟩))
    ⟨(i 1).val % 128, Nat.mod_lt _ (by decide)⟩

/-- The vector messages as edges × 3 × 128. `vs` is the source nodes' vector features in the same layout. -/
def vecCube (M : A2 320000 384) (vs : A3 320000 3 128) (ev : A2 320000 3) : A3 320000 3 128 :=
  fun i => vecEntry (row M (i 0)) (vs i) (ev (ix2 (i 0) (i 1))) (i 2)

end Cert.Msg

end
-- ==== Proof.NodeBlock.lean ====
/-
  One block of the node projection, entry by entry.

  The first kernel's body takes a block of 1000 rows of `x`, the two weight matrices and the two bias rows, and
  stores one value: the second dense layer applied to the silu of the first. Read at row `r` and column `j` of
  the block, that value is `Cert.Msg.nodeRow` of row `r` of the block of `x`:

  * a change of float format is the identity on extended reals;
  * a matrix product into the zero accumulator is, at entry (r, q), the sum over the shared axis `k` of
    `a (r, k) · w (k, q)`: the left operand is read at (output row, k), the right one at (k, output column);
  * a bias row of shape 1 × n spread down the rows is read at (0, column).

  Nothing here uses a law of arithmetic: each operation is only read at an index.
-/
import proofs.«180632_j73641509257758_1_alg».proof.Proof.Gen.KernelIdeal.Skeleton
import proofs.«180632_j73641509257758_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeBlock

open Cert.KernelIdeal Cert.KernelIdeal.Gen Idealize.ShloMosaic Idealize.ShloMosaic.ValueIdx

/-! ## The first product, 1000 × 128 by 128 × 128: which entries of its operands an output entry reads -/

/-- The left operand's row is the output's row. -/
theorem hid_lhs_row (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column is the summation index. -/
theorem hid_lhs_col (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row is the summation index. -/
theorem hid_rhs_row (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column is the output's column. -/
theorem hid_rhs_col (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The first product into the zero accumulator, at row `r` and column `q`: `∑ k, a (r, k) · w (k, q)`. -/
theorem hid_matmul_apply (a : FVec Ideal S1000x128 .bf16) (w : FVec Ideal S128x128 .bf16) (r : Fin 1000) (q : Fin 128) :
    matmul dot_S1000x128_S128x128_S1000x128_1_0_0_1_n_n none a w (constant (F := Ideal) S1000x128 .f32 0x00000000#32) (ix2 r q)
      = ∑ k : Fin 128, a (ix2 r k) * w (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r q) ((contrEquiv1 dot_S1000x128_S128x128_S1000x128_1_0_0_1_n_n 128 rfl rfl).symm k) = ix2 r k := funext fun ax => Fin.ext (by
    match ax with
    | ⟨0, _⟩ => exact hid_lhs_row _ _
    | ⟨1, _⟩ => exact (hid_lhs_col _ _).trans hk)
  have er : dot_S1000x128_S128x128_S1000x128_1_0_0_1_n_n.rhsIdx (ix2 r q) ((contrEquiv1 dot_S1000x128_S128x128_S1000x128_1_0_0_1_n_n 128 rfl rfl).symm k) = ix2 k q := funext fun ax => Fin.ext (by
    match ax with
    | ⟨0, _⟩ => exact (hid_rhs_row _ _).trans hk
    | ⟨1, _⟩ => exact hid_rhs_col _ _)
  rw [el, er]

/-! ## The second product, 1000 × 128 by 128 × 384 -/

/-- The left operand's row is the output's row. -/
theorem out_lhs_row (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
/-- The left operand's column is the summation index. -/
theorem out_lhs_col (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
/-- The right operand's row is the summation index. -/
theorem out_rhs_row (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
/-- The right operand's column is the output's column. -/
theorem out_rhs_col (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- The second product into the zero accumulator, at row `r` and column `j`: `∑ k, a (r, k) · w (k, j)`. -/
theorem out_matmul_apply (a : FVec Ideal S1000x128 .bf16) (w : FVec Ideal S128x384 .bf16) (r : Fin 1000) (j : Fin 384) :
    matmul dot_S1000x128_S128x384_S1000x384_1_0_0_1_n_n none a w (constant (F := Ideal) S1000x384 .f32 0x00000000#32) (ix2 r j)
      = ∑ k : Fin 128, a (ix2 r k) * w (ix2 k j) := by
  simp only [matmul]
  rw [Ideal.matmul_constant_zero_apply, ← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 r j) ((contrEquiv1 dot_S1000x128_S128x384_S1000x384_1_0_0_1_n_n 128 rfl rfl).symm k) = ix2 r k := funext fun ax => Fin.ext (by
    match ax with
    | ⟨0, _⟩ => exact out_lhs_row _ _
    | ⟨1, _⟩ => exact (out_lhs_col _ _).trans hk)
  have er : dot_S1000x128_S128x384_S1000x384_1_0_0_1_n_n.rhsIdx (ix2 r j) ((contrEquiv1 dot_S1000x128_S128x384_S1000x384_1_0_0_1_n_n 128 rfl rfl).symm k) = ix2 k j := funext fun ax => Fin.ext (by
    match ax with
    | ⟨0, _⟩ => exact (out_rhs_row _ _).trans hk
    | ⟨1, _⟩ => exact out_rhs_col _ _)
  rw [el, er]

/-! ## The bias rows spread down the block -/

/-- The first bias row, cast to its own shape and spread over 1000 rows, read at (r, q): the row's entry `q`. -/
theorem hid_bias_apply (b : Vec Ideal S1x128 .f32) (hc : S1x128.ShapeCasts S1x128) (hb : S1x128.Broadcasts S1000x128)
    (r : Fin 1000) (q : Fin 128) :
    broadcastTo S1000x128 (shapeCast S1x128 b hc) hb (ix2 r q) = b (ix2 0 q) := by
  rw [shapeCast_self]
  exact broadcastTo_1b_ab_apply b hb r q

/-- The second bias row, likewise, read at (r, j): the row's entry `j`. -/
theorem out_bias_apply (b : Vec Ideal S1x384 .f32) (hc : S1x384.ShapeCasts S1x384) (hb : S1x384.Broadcasts S1000x384)
    (r : Fin 1000) (j : Fin 384) :
    broadcastTo S1000x384 (shapeCast S1x384 b hc) hb (ix2 r j) = b (ix2 0 j) := by
  rw [shapeCast_self]
  exact broadcastTo_1b_ab_apply b hb r j

/-! ## The stored value at an entry -/

/-- The value the body stores, at row `r` and column `j` of the block, is the node projection of row `r` of the
    block of `x` at column `j`. -/
theorem pay_apply (v0 : Vec Ideal S1000x128 .f32) (v2 : Vec Ideal S128x128 .f32) (v5 : Vec Ideal S1x128 .f32)
    (v11 : Vec Ideal S128x384 .f32) (v15 : Vec Ideal S1x384 .f32) (r : Fin 1000) (j : Fin 384) :
    k0_pay1 v0 v2 v5 v11 v15 (ix2 r j)
      = Cert.Msg.nodeRow (fun k => v0 (ix2 r k)) (fun k q => v2 (ix2 k q)) (fun k => v5 (ix2 0 k))
          (fun k q => v11 (ix2 k q)) (fun q => v15 (ix2 0 q)) j := by
  unfold k0_pay1
  refine (addf_apply _ _ _).trans ?_
  unfold Cert.Msg.nodeRow Cert.Msg.affine
  refine congrArg₂ (· + ·) ?_ (out_bias_apply v15 _ _ r j)
  refine (out_matmul_apply _ _ r j).trans ?_
  refine Finset.sum_congr rfl fun k _ => ?_
  refine congrArg₂ (· * ·) ?_ rfl
  unfold Cert.Msg.silu
  have hz : addf (matmul dot_S1000x128_S128x128_S1000x128_1_0_0_1_n_n none (truncf .bf16 v0 bitsLt_bf16_f32) (truncf .bf16 v2 bitsLt_bf16_f32) (constant (F := Ideal) S1000x128 .f32 0x00000000#32))
        (broadcastTo S1000x128 (shapeCast S1x128 v5 Gen.shapeCasts_S1x128_S1x128) Gen.broadcasts_S1x128_S1000x128) (ix2 r k)
      = (∑ k' : Fin 128, v0 (ix2 r k') * v2 (ix2 k' k)) + v5 (ix2 0 k) :=
    (addf_apply _ _ _).trans (congrArg₂ (· + ·) (hid_matmul_apply _ _ r k) (hid_bias_apply v5 _ _ r k))
  exact congrArg₂ (· * ·) hz (congrArg Ideal.logistic hz)

end Cert.KernelIdeal.NodeBlock

end
-- ==== Proof.NodeValue.lean ====
/-
  The node projection, region by region: what the first kernel leaves in its output array.

  The first kernel walks the 10000 nodes in ten blocks of 1000 rows. At each block it computes, row by row, the two
  dense layers with a silu between them (`Cert.Msg.nodeRow`) of that block's rows of `x`, with the whole weight
  matrices and bias rows. A row of the result depends only on the same row of `x`, so the ten blocks written back
  are the restrictions of one array, `Cert.Msg.nodeArr`, and they cover it.
-/
import proofs.«180632_j73641509257758_1_alg».proof.Proof.Gen.KernelIdeal.Frame
import proofs.«180632_j73641509257758_1_alg».proof.Proof.Spec
import proofs.«180632_j73641509257758_1_alg».proof.Proof.NodeBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## Where each window's block sits -/

/-- Every access of the body starts at the corner of its buffer. -/
theorem corner : (![0, 0] : Fin 2 → Nat) = fun _ => 0 := funext fun a => by fin_cases a <;> rfl

/-- The index maps over the ten points: the block of `x` and the output block are block `t` of the rows and the only
    block of the columns; the weights and the bias rows are their arrays whole. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read off its array -/

/-- Entry (r, k) of block `t` of `x` is entry (1000 t + r, k) of `x`. -/
theorem x_block (c : Dev nD) (t : Fin cfg0.N) (y : S1000x128.Idx) (i : S10000x128.Idx)
    (h0 : (i 0).val = 1000 * t.val + (y 0).val) (h1 : (i 1).val = (y 1).val) :
    (iblk0 V c 0 t : Vec Ideal S1000x128 .f32) y = (V c main_arg0 : S10000x128.Idx → EReal) i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 1000 + 1 * (y 0).val = (i 0).val; omega
  | ⟨1, _⟩ => show win0_0.index t (1 : Fin 2) * 128 + 1 * (y 1).val = (i 1).val; omega

/-- The first weight matrix's block is the matrix. -/
theorem w1_block (c : Dev nD) (t : Fin cfg0.N) (y : S128x128.Idx) :
    (iblk0 V c 1 t : Vec Ideal S128x128 .f32) y = (V c main_arg5 : S128x128.Idx → EReal) y := by
  obtain ⟨-, -, e0, e1, -⟩ := block_index t
  unfold iblk0
  rw [View.read_apply]
  show V c main_arg5 _ = V c main_arg5 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias row's block is the row. -/
theorem b1_block (c : Dev nD) (t : Fin cfg0.N) (y : S1x128.Idx) :
    (iblk0 V c 2 t : Vec Ideal S1x128 .f32) y = (V c main_v0 : S1x128.Idx → EReal) y := by
  obtain ⟨-, -, -, -, e0, e1, -⟩ := block_index t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix's block is the matrix. -/
theorem w2_block (c : Dev nD) (t : Fin cfg0.N) (y : S128x384.Idx) :
    (iblk0 V c 3 t : Vec Ideal S128x384 .f32) y = (V c main_arg7 : S128x384.Idx → EReal) y := by
  obtain ⟨-, -, -, -, -, -, e0, e1, -⟩ := block_index t
  unfold iblk0
  rw [View.read_apply]
  show V c main_arg7 _ = V c main_arg7 _
  congr 1
  funext a
  apply Fin.ext
  match a with
  | ⟨0, _⟩ => show win0_3.index t (0 : Fin 2) * 128 + 1 * (y 0).val = (y 0).val; omega
  | ⟨1, _⟩ => show win0_3.index t (1 : Fin 2) * 384 + 1 * (y 1).val = (y 1).val; omega

/-- The second bias row's block is the row. -/
theorem b2_block (c : Dev nD) (t : Fin cfg0.N) (y : S1x384.Idx) :
    (iblk0 V c 4 t : Vec Ideal S1x384 .f32) y = (V c main_v1 : S1x384.Idx → EReal) y := by
  obtain ⟨-, -, -, -, -, -, -, -, e0, e1, -⟩ := block_index t
  unfold iblk0
  rw [View.read_apply]
  show V c main_v1 _ = V c main_v1 _
  congr 1
  funext a
  apply Fin.ext
  match a with
  | ⟨0, _⟩ => show win0_4.index t (0 : Fin 2) * 1 + 1 * (y 0).val = (y 0).val; omega
  | ⟨1, _⟩ => show win0_4.index t (1 : Fin 2) * 384 + 1 * (y 1).val = (y 1).val; omega

/-! ## One entry of the block a point writes back -/

/-- The node projection depends on its arguments only through their values. -/
theorem nodeRow_congr {xr xr' : Fin 128 → EReal} {W1 W1' : Fin 128 → Fin 128 → EReal} {b1 b1' : Fin 128 → EReal}
    {W2 W2' : Fin 128 → Fin 384 → EReal} {b2 b2' : Fin 384 → EReal} {j j' : Fin 384}
    (hx : xr = xr') (hW1 : W1 = W1') (hb1 : b1 = b1') (hW2 : W2 = W2') (hb2 : b2 = b2') (hj : j = j') :
    Cert.Msg.nodeRow xr W1 b1 W2 b2 j = Cert.Msg.nodeRow xr' W1' b1' W2' b2' j' := by
  subst hx hW1 hb1 hW2 hb2 hj; rfl

/-- Entry (r, j) of what point `t` stores is entry (1000 t + r, j) of the whole projection: row `r` of the block of
    `x` is row 1000 t + r of `x`, and the weights and bias rows are the same at every point. -/
theorem stored_entry (c : Dev nD) (t : Fin cfg0.N) (r : Fin 1000) (j : Fin 384) (i : S10000x384.Idx)
    (h0 : (i 0).val = 1000 * t.val + r.val) (h1 : (i 1).val = j.val) :
    k0_pay1 (iblk0 V c 0 t) (iblk0 V c 1 t) (iblk0 V c 2 t) (iblk0 V c 3 t) (iblk0 V c 4 t) (ix2 r j)
      = Cert.Msg.nodeArr (V c main_arg0) (V c main_arg5) (fun k => V c main_v0 (ix2 0 k)) (V c main_arg7)
          (fun q => V c main_v1 (ix2 0 q)) i := by
  refine (NodeBlock.pay_apply (iblk0 V c 0 t) (iblk0 V c 1 t) (iblk0 V c 2 t) (iblk0 V c 3 t) (iblk0 V c 4 t) r j).trans ?_
  unfold Cert.Msg.nodeArr
  exact nodeRow_congr
    (funext fun k => x_block V c t (ix2 r k) (ix2 (i 0) k) h0 rfl)
    (funext fun k => funext fun q => w1_block V c t (ix2 k q))
    (funext fun k => b1_block V c t (ix2 0 k))
    (funext fun k => funext fun q => w2_block V c t (ix2 k q))
    (funext fun q => b2_block V c t (ix2 0 q))
    (Fin.ext h1.symm)

/-! ## What a point writes back, and the cover -/

/-- What point `t` writes back is block `t` of the whole projection. -/
theorem flushed_eq (c : Dev nD) (t : Fin cfg0.N) :
    (dat0 (F := Ideal) V c).flushed 5 t
      = ((cfg0.win 5).blk t).view.read (Elt Ideal)
          (Cert.Msg.nodeArr (V c main_arg0) (V c main_arg5) (fun k => V c main_v0 (ix2 0 k)) (V c main_arg7)
            (fun q => V c main_v1 (ix2 0 q))) := by
  show (cfg0.win 5).cut (grid0.coords t) ((dat0 V c).after 5 t) = _
  rw [after0_5]
  unfold out0_5
  rw [View.canon_unit_zero corner]
  simp only [View.ld_unit_zero (S := S1000x128) corner, View.ld_unit_zero (S := S128x128) corner,
    View.ld_unit_zero (S := S1x128) corner, View.ld_unit_zero (S := S128x384) corner,
    View.ld_unit_zero (S := S1x384) corner]
  obtain ⟨-, -, -, -, -, -, -, -, -, -, e0, e1⟩ := block_index t
  funext y
  have hy0 : (y 0).val < 1000 := (y 0).isLt
  have hy1 : (y 1).val < 384 := (y 1).isLt
  rw [View.read_apply]
  have hy : (cfg0.win 5).xinj (grid0.coords t) y = ix2 (⟨(y 0).val, hy0⟩ : Fin 1000) (⟨(y 1).val, hy1⟩ : Fin 384) :=
    funext fun a => Fin.ext (by match a with | ⟨0, _⟩ => rfl | ⟨1, _⟩ => rfl)
  show k0_pay1 (iblk0 V c 0 t) (iblk0 V c 1 t) (iblk0 V c 2 t) (iblk0 V c 3 t) (iblk0 V c 4 t)
      ((cfg0.win 5).xinj (grid0.coords t) y) = _
  rw [hy]
  refine stored_entry V c t _ _ _ ?_ ?_
  · show win0_5.index t (0 : Fin 2) * 1000 + 1 * (y 0).val = 1000 * t.val + (y 0).val; omega
  · show win0_5.index t (1 : Fin 2) * 384 + 1 * (y 1).val = (y 1).val; omega

/-- An entry of the output array is in point `t`'s block iff each coordinate is in the block's range on its axis. -/
theorem mem_blk (t : Fin cfg0.N) (i : S10000x384.Idx) :
    i ∈ ((cfg0.win 5).blk t).view.set ↔ ∀ a : Fin 2, win0_5.index t a * S1000x384.size a ≤ (i a).val ∧ (i a).val < win0_5.index t a * S1000x384.size a + S1000x384.size a := by
  show i ∈ ((View.whole main_v5).slice (win0_5.rect t)).set ↔ _
  rw [View.set_slice_whole, Rect.mem_set_unit]
  exact Iff.rfl

/-- Every entry of the output array is written back by some point: row `r` by point `r / 1000`. -/
theorem covered (i : S10000x384.Idx) :
    ∃ t : Fin cfg0.N, (cfg0.win 5).flush t = true ∧ i ∈ ((cfg0.win 5).blk t).view.set := by
  have hN : cfg0.N = 10 := N_0
  have hi0 : (i 0).val < 10000 := (i 0).isLt
  have hi1 : (i 1).val < 384 := (i 1).isLt
  let t : Fin cfg0.N := ⟨(i 0).val / 1000, by omega⟩
  have ht : t.val = (i 0).val / 1000 := rfl
  obtain ⟨-, -, -, -, -, -, -, -, -, -, e0, e1⟩ := block_index t
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 384 ≤ (i 1).val ∧ (i 1).val < win0_5.index t (1 : Fin 2) * 384 + 384; omega

/-- After the first kernel its output array holds every node's projected row, as a function of the arrays the
    region found: `x`, the two weight matrices, and the two bias rows (each a 1 × n array, read at row 0). -/
theorem node_final (c : Dev nD) :
    (dat0 (F := Ideal) V c).arrAt 5 cfg0.N
      = Cert.Msg.nodeArr (V c main_arg0) (V c main_arg5) (fun k => V c main_v0 (ix2 0 k)) (V c main_arg7)
          (fun j => V c main_v1 (ix2 0 j)) :=
  (dat0 (F := Ideal) V c).arrAt_eq_of_cover 5
    (Cert.Msg.nodeArr (V c main_arg0) (V c main_arg5) (fun k => V c main_v0 (ix2 0 k)) (V c main_arg7)
      (fun j => V c main_v1 (ix2 0 j)))
    (fun t _ => flushed_eq V c t) covered

end Cert.KernelIdeal.NodeValue

end
-- ==== Proof.EdgeBlock.lean ====
/-
  The second kernel's arithmetic at one grid point, read one entry at a time.

  At a grid point the kernel holds a block of 1280 edges. Row `r` of the block's message is the gathered node row
  times the gate: the radial layer (32 → 384) times the two-layer weight network (416 → 384 → 384 with `z · σ(z)`
  between). Each of the three block products reads, at entry `(r, q)`, as the sum over the contracted coordinate of
  row `r` of the left factor times column `q` of the right one; a bias row broadcast down the block reads its own
  column; a change of float format is the identity on extended reals. So entry `(r, q)` of the message block is
  `Cert.Msg.msgRow` of row `r` of each edge block and the whole weight matrices, at column `q`. The scalar message
  is the first 128 columns; the vector message's piece for space coordinate `k` combines columns `128 + h` and
  `256 + h` of the message with column `128·k + h` of the gathered vector features and coordinate `k` of the edge
  direction.
-/
import proofs.«180632_j73641509257758_1_alg».proof.Proof.Gen.KernelIdeal.Skeleton
import proofs.«180632_j73641509257758_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBlock

open Cert.KernelIdeal Cert.KernelIdeal.Gen Idealize.ShloMosaic Idealize.ShloMosaic.ValueIdx

/-! ## The three block products at an entry -/

theorem lhs_rad_0 (i : S1280x384.Idx) (q : dot_S1280x32_S32x384_S1280x384_1_0_0_1_n_n.contr.Idx) :
    (dot_S1280x32_S32x384_S1280x384_1_0_0_1_n_n.lhsIdx i q 0).val = (i 0).val := by
  unfold DotDims.lhsIdx
  rw [dif_neg (show ¬(0 : Fin S1280x32.rank) ∈ dot_S1280x32_S32x384_S1280x384_1_0_0_1_n_n.lhsBatch by decide), dif_pos (show (0 : Fin S1280x32.rank) ∈ dot_S1280x32_S32x384_S1280x384_1_0_0_1_n_n.lhsNonContracting by decide)]
  rfl
theorem lhs_rad_1 (i : S1280x384.Idx) (q : dot_S1280x32_S32x384_S1280x384_1_0_0_1_n_n.contr.Idx) :
    (dot_S1280x32_S32x384_S1280x384_1_0_0_1_n_n.lhsIdx i q 1).val = (q ⟨0, by decide⟩).val :=
  dot_S1280x32_S32x384_S1280x384_1_0_0_1_n_n.lhsIdx_val_of_single rfl i q
theorem rhs_rad_0 (i : S1280x384.Idx) (q : dot_S1280x32_S32x384_S1280x384_1_0_0_1_n_n.contr.Idx) :
    (dot_S1280x32_S32x384_S1280x384_1_0_0_1_n_n.rhsIdx i q 0).val = (q ⟨0, by decide⟩).val :=
  dot_S1280x32_S32x384_S1280x384_1_0_0_1_n_n.rhsIdx_val_of_single rfl i q
theorem rhs_rad_1 (i : S1280x384.Idx) (q : dot_S1280x32_S32x384_S1280x384_1_0_0_1_n_n.contr.Idx) :
    (dot_S1280x32_S32x384_S1280x384_1_0_0_1_n_n.rhsIdx i q 1).val = (i 1).val := by
  unfold DotDims.rhsIdx
  rw [dif_neg (show ¬(1 : Fin S32x384.rank) ∈ dot_S1280x32_S32x384_S1280x384_1_0_0_1_n_n.rhsBatch by decide), dif_pos (show (1 : Fin S32x384.rank) ∈ dot_S1280x32_S32x384_S1280x384_1_0_0_1_n_n.rhsNonContracting by decide)]
  rfl
/-- Entry `(r, q)` of this block product into the zero block: the sum over `k` of row `r` of the left factor times
    column `q` of the right one. -/
theorem rad_apply {φ₁ φ₂ : FTy} (a : FVec Ideal S1280x32 φ₁) (w : FVec Ideal S32x384 φ₂) (r : Fin 1280) (q : Fin 384) :
    matmul dot_S1280x32_S32x384_S1280x384_1_0_0_1_n_n none a w (constant S1280x384 .f32 0x00000000#32) (ix2 r q)
      = ∑ k : Fin 32, a (ix2 r k) * w (ix2 k q) := by
  simp only [matmul]
  rw [Ideal.matmul_constant_zero_apply, ← Equiv.sum_comp (contrEquiv1 dot_S1280x32_S32x384_S1280x384_1_0_0_1_n_n 32 rfl rfl).symm]
  refine Finset.sum_congr rfl fun k _ => ?_
  have hk := contrEquiv1_symm_val dot_S1280x32_S32x384_S1280x384_1_0_0_1_n_n 32 rfl rfl k
  have el : dot_S1280x32_S32x384_S1280x384_1_0_0_1_n_n.lhsIdx (ix2 r q) ((contrEquiv1 dot_S1280x32_S32x384_S1280x384_1_0_0_1_n_n 32 rfl rfl).symm k) = ix2 r k := funext fun a => Fin.ext (by
    match a with
    | ⟨0, _⟩ => exact lhs_rad_0 _ _
    | ⟨1, _⟩ => exact (lhs_rad_1 _ _).trans hk)
  have er : dot_S1280x32_S32x384_S1280x384_1_0_0_1_n_n.rhsIdx (ix2 r q) ((contrEquiv1 dot_S1280x32_S32x384_S1280x384_1_0_0_1_n_n 32 rfl rfl).symm k) = ix2 k q := funext fun a => Fin.ext (by
    match a with
    | ⟨0, _⟩ => exact (rhs_rad_0 _ _).trans hk
    | ⟨1, _⟩ => exact rhs_rad_1 _ _)
  rw [el, er]

theorem lhs_wnet_0 (i : S1280x384.Idx) (q : dot_S1280x416_S416x384_S1280x384_1_0_0_1_n_n.contr.Idx) :
    (dot_S1280x416_S416x384_S1280x384_1_0_0_1_n_n.lhsIdx i q 0).val = (i 0).val := by
  unfold DotDims.lhsIdx
  rw [dif_neg (show ¬(0 : Fin S1280x416.rank) ∈ dot_S1280x416_S416x384_S1280x384_1_0_0_1_n_n.lhsBatch by decide), dif_pos (show (0 : Fin S1280x416.rank) ∈ dot_S1280x416_S416x384_S1280x384_1_0_0_1_n_n.lhsNonContracting by decide)]
  rfl
theorem lhs_wnet_1 (i : S1280x384.Idx) (q : dot_S1280x416_S416x384_S1280x384_1_0_0_1_n_n.contr.Idx) :
    (dot_S1280x416_S416x384_S1280x384_1_0_0_1_n_n.lhsIdx i q 1).val = (q ⟨0, by decide⟩).val :=
  dot_S1280x416_S416x384_S1280x384_1_0_0_1_n_n.lhsIdx_val_of_single rfl i q
theorem rhs_wnet_0 (i : S1280x384.Idx) (q : dot_S1280x416_S416x384_S1280x384_1_0_0_1_n_n.contr.Idx) :
    (dot_S1280x416_S416x384_S1280x384_1_0_0_1_n_n.rhsIdx i q 0).val = (q ⟨0, by decide⟩).val :=
  dot_S1280x416_S416x384_S1280x384_1_0_0_1_n_n.rhsIdx_val_of_single rfl i q
theorem rhs_wnet_1 (i : S1280x384.Idx) (q : dot_S1280x416_S416x384_S1280x384_1_0_0_1_n_n.contr.Idx) :
    (dot_S1280x416_S416x384_S1280x384_1_0_0_1_n_n.rhsIdx i q 1).val = (i 1).val := by
  unfold DotDims.rhsIdx
  rw [dif_neg (show ¬(1 : Fin S416x384.rank) ∈ dot_S1280x416_S416x384_S1280x384_1_0_0_1_n_n.rhsBatch by decide), dif_pos (show (1 : Fin S416x384.rank) ∈ dot_S1280x416_S416x384_S1280x384_1_0_0_1_n_n.rhsNonContracting by decide)]
  rfl
/-- Entry `(r, q)` of this block product into the zero block: the sum over `k` of row `r` of the left factor times
    column `q` of the right one. -/
theorem wnet_apply {φ₁ φ₂ : FTy} (a : FVec Ideal S1280x416 φ₁) (w : FVec Ideal S416x384 φ₂) (r : Fin 1280) (q : Fin 384) :
    matmul dot_S1280x416_S416x384_S1280x384_1_0_0_1_n_n none a w (constant S1280x384 .f32 0x00000000#32) (ix2 r q)
      = ∑ k : Fin 416, a (ix2 r k) * w (ix2 k q) := by
  simp only [matmul]
  rw [Ideal.matmul_constant_zero_apply, ← Equiv.sum_comp (contrEquiv1 dot_S1280x416_S416x384_S1280x384_1_0_0_1_n_n 416 rfl rfl).symm]
  refine Finset.sum_congr rfl fun k _ => ?_
  have hk := contrEquiv1_symm_val dot_S1280x416_S416x384_S1280x384_1_0_0_1_n_n 416 rfl rfl k
  have el : dot_S1280x416_S416x384_S1280x384_1_0_0_1_n_n.lhsIdx (ix2 r q) ((contrEquiv1 dot_S1280x416_S416x384_S1280x384_1_0_0_1_n_n 416 rfl rfl).symm k) = ix2 r k := funext fun a => Fin.ext (by
    match a with
    | ⟨0, _⟩ => exact lhs_wnet_0 _ _
    | ⟨1, _⟩ => exact (lhs_wnet_1 _ _).trans hk)
  have er : dot_S1280x416_S416x384_S1280x384_1_0_0_1_n_n.rhsIdx (ix2 r q) ((contrEquiv1 dot_S1280x416_S416x384_S1280x384_1_0_0_1_n_n 416 rfl rfl).symm k) = ix2 k q := funext fun a => Fin.ext (by
    match a with
    | ⟨0, _⟩ => exact (rhs_wnet_0 _ _).trans hk
    | ⟨1, _⟩ => exact rhs_wnet_1 _ _)
  rw [el, er]

theorem lhs_hid_0 (i : S1280x384.Idx) (q : dot_S1280x384_S384x384_S1280x384_1_0_0_1_n_n.contr.Idx) :
    (dot_S1280x384_S384x384_S1280x384_1_0_0_1_n_n.lhsIdx i q 0).val = (i 0).val := by
  unfold DotDims.lhsIdx
  rw [dif_neg (show ¬(0 : Fin S1280x384.rank) ∈ dot_S1280x384_S384x384_S1280x384_1_0_0_1_n_n.lhsBatch by decide), dif_pos (show (0 : Fin S1280x384.rank) ∈ dot_S1280x384_S384x384_S1280x384_1_0_0_1_n_n.lhsNonContracting by decide)]
  rfl
theorem lhs_hid_1 (i : S1280x384.Idx) (q : dot_S1280x384_S384x384_S1280x384_1_0_0_1_n_n.contr.Idx) :
    (dot_S1280x384_S384x384_S1280x384_1_0_0_1_n_n.lhsIdx i q 1).val = (q ⟨0, by decide⟩).val :=
  dot_S1280x384_S384x384_S1280x384_1_0_0_1_n_n.lhsIdx_val_of_single rfl i q
theorem rhs_hid_0 (i : S1280x384.Idx) (q : dot_S1280x384_S384x384_S1280x384_1_0_0_1_n_n.contr.Idx) :
    (dot_S1280x384_S384x384_S1280x384_1_0_0_1_n_n.rhsIdx i q 0).val = (q ⟨0, by decide⟩).val :=
  dot_S1280x384_S384x384_S1280x384_1_0_0_1_n_n.rhsIdx_val_of_single rfl i q
theorem rhs_hid_1 (i : S1280x384.Idx) (q : dot_S1280x384_S384x384_S1280x384_1_0_0_1_n_n.contr.Idx) :
    (dot_S1280x384_S384x384_S1280x384_1_0_0_1_n_n.rhsIdx i q 1).val = (i 1).val := by
  unfold DotDims.rhsIdx
  rw [dif_neg (show ¬(1 : Fin S384x384.rank) ∈ dot_S1280x384_S384x384_S1280x384_1_0_0_1_n_n.rhsBatch by decide), dif_pos (show (1 : Fin S384x384.rank) ∈ dot_S1280x384_S384x384_S1280x384_1_0_0_1_n_n.rhsNonContracting by decide)]
  rfl
/-- Entry `(r, q)` of this block product into the zero block: the sum over `k` of row `r` of the left factor times
    column `q` of the right one. -/
theorem hid_apply {φ₁ φ₂ : FTy} (a : FVec Ideal S1280x384 φ₁) (w : FVec Ideal S384x384 φ₂) (r : Fin 1280) (q : Fin 384) :
    matmul dot_S1280x384_S384x384_S1280x384_1_0_0_1_n_n none a w (constant S1280x384 .f32 0x00000000#32) (ix2 r q)
      = ∑ k : Fin 384, a (ix2 r k) * w (ix2 k q) := by
  simp only [matmul]
  rw [Ideal.matmul_constant_zero_apply, ← Equiv.sum_comp (contrEquiv1 dot_S1280x384_S384x384_S1280x384_1_0_0_1_n_n 384 rfl rfl).symm]
  refine Finset.sum_congr rfl fun k _ => ?_
  have hk := contrEquiv1_symm_val dot_S1280x384_S384x384_S1280x384_1_0_0_1_n_n 384 rfl rfl k
  have el : dot_S1280x384_S384x384_S1280x384_1_0_0_1_n_n.lhsIdx (ix2 r q) ((contrEquiv1 dot_S1280x384_S384x384_S1280x384_1_0_0_1_n_n 384 rfl rfl).symm k) = ix2 r k := funext fun a => Fin.ext (by
    match a with
    | ⟨0, _⟩ => exact lhs_hid_0 _ _
    | ⟨1, _⟩ => exact (lhs_hid_1 _ _).trans hk)
  have er : dot_S1280x384_S384x384_S1280x384_1_0_0_1_n_n.rhsIdx (ix2 r q) ((contrEquiv1 dot_S1280x384_S384x384_S1280x384_1_0_0_1_n_n 384 rfl rfl).symm k) = ix2 k q := funext fun a => Fin.ext (by
    match a with
    | ⟨0, _⟩ => exact (rhs_hid_0 _ _).trans hk
    | ⟨1, _⟩ => exact rhs_hid_1 _ _)
  rw [el, er]

/-! ## A bias row broadcast down the block -/

/-- A 1 × 384 bias row, broadcast to the 1280 × 384 block, reads its own column whatever the row. -/
theorem bias_apply (b : Vec Ideal S1x384 .f32) (r : Fin 1280) (q : Fin 384) :
    broadcastTo S1280x384 (shapeCast S1x384 b shapeCasts_S1x384_S1x384) broadcasts_S1x384_S1280x384 (ix2 r q)
      = b (ix2 0 q) := by
  rw [shapeCast_self]
  exact broadcastTo_apply b broadcasts_S1x384_S1280x384 (ix2 r q) (ix2 0 q) (fun a => match a with
    | ⟨0, _⟩ => by show (0 : ℕ) = if (1 : ℕ) = 1 then 0 else r.val; rw [if_pos rfl]
    | ⟨1, _⟩ => by show q.val = if (384 : ℕ) = 1 then 0 else q.val; rw [if_neg (by decide)])

/-! ## The message block at an entry -/

/-- The hidden layer of the weight network after its activation, at row `r` and hidden column `k`. -/
theorem act_apply (v9 : Vec Ideal S1280x416 .f32) (v11 : Vec Ideal S416x384 .f32) (v14 : Vec Ideal S1x384 .f32)
    (r : Fin 1280) (k : Fin 384) :
    mulf (F := Ideal)
        (addf (matmul dot_S1280x416_S416x384_S1280x384_1_0_0_1_n_n none (truncf .bf16 v9 bitsLt_bf16_f32) (truncf .bf16 v11 bitsLt_bf16_f32) (constant S1280x384 .f32 0x00000000#32))
          (broadcastTo S1280x384 (shapeCast S1x384 v14 shapeCasts_S1x384_S1x384) broadcasts_S1x384_S1280x384))
        (logistic
          (addf (matmul dot_S1280x416_S416x384_S1280x384_1_0_0_1_n_n none (truncf .bf16 v9 bitsLt_bf16_f32) (truncf .bf16 v11 bitsLt_bf16_f32) (constant S1280x384 .f32 0x00000000#32))
            (broadcastTo S1280x384 (shapeCast S1x384 v14 shapeCasts_S1x384_S1x384) broadcasts_S1x384_S1280x384)))
        (ix2 r k)
      = Cert.Msg.silu (Cert.Msg.affine (fun j => v9 (ix2 r j)) (fun j q' => v11 (ix2 j q')) (fun q' => v14 (ix2 0 q')) k) := by
  have e : addf (F := Ideal) (matmul dot_S1280x416_S416x384_S1280x384_1_0_0_1_n_n none (truncf .bf16 v9 bitsLt_bf16_f32) (truncf .bf16 v11 bitsLt_bf16_f32) (constant S1280x384 .f32 0x00000000#32))
          (broadcastTo S1280x384 (shapeCast S1x384 v14 shapeCasts_S1x384_S1x384) broadcasts_S1x384_S1280x384) (ix2 r k)
        = Cert.Msg.affine (fun j => v9 (ix2 r j)) (fun j q' => v11 (ix2 j q')) (fun q' => v14 (ix2 0 q')) k := by
    rw [addf_apply, wnet_apply, bias_apply]
    rfl
  show FloatOps.mulf _ (FloatOps.logistic _) = _
  rw [e]
  rfl

/-- Entry `(r, q)` of the message block: the gathered node row times the gate, of row `r` of each edge block. -/
theorem msg_apply (v0 : Vec Ideal S1280x32 .f32) (v2 : Vec Ideal S32x384 .f32) (v5 : Vec Ideal S1x384 .f32)
    (v9 : Vec Ideal S1280x416 .f32) (v11 : Vec Ideal S416x384 .f32) (v14 : Vec Ideal S1x384 .f32)
    (v20 : Vec Ideal S384x384 .f32) (v24 : Vec Ideal S1x384 .f32) (v29 : Vec Ideal S1280x384 .f32)
    (r : Fin 1280) (q : Fin 384) :
    k1_pay5 (F := Ideal) v0 v2 v5 v9 v11 v14 v20 v24 v29 (ix2 r q)
      = Cert.Msg.msgRow (fun q' => v29 (ix2 r q')) (fun k => v0 (ix2 r k)) (fun k => v9 (ix2 r k))
          (fun k q' => v2 (ix2 k q')) (fun q' => v5 (ix2 0 q')) (fun k q' => v11 (ix2 k q')) (fun q' => v14 (ix2 0 q'))
          (fun k q' => v20 (ix2 k q')) (fun q' => v24 (ix2 0 q')) q := by
  unfold k1_pay5
  rw [mulf_apply, mulf_apply, addf_apply, addf_apply, bias_apply, bias_apply, shapeCast_self, rad_apply, hid_apply]
  unfold Cert.Msg.msgRow Cert.Msg.gateRow Cert.Msg.affine
  refine congrArg (v29 (ix2 r q) * ·) (congrArg (_ * ·) (congrArg (· + v24 (ix2 0 q)) (Finset.sum_congr rfl fun k _ => ?_)))
  exact congrArg (· * v20 (ix2 k q)) (act_apply v9 v11 v14 r k)

/-! ## The three thirds of the message block -/

section Thirds
variable (v0 : Vec Ideal S1280x32 .f32) (v2 : Vec Ideal S32x384 .f32) (v5 : Vec Ideal S1x384 .f32)
  (v9 : Vec Ideal S1280x416 .f32) (v11 : Vec Ideal S416x384 .f32) (v14 : Vec Ideal S1x384 .f32)
  (v20 : Vec Ideal S384x384 .f32) (v24 : Vec Ideal S1x384 .f32) (v29 : Vec Ideal S1280x384 .f32)

/-- The message row of block row `r`, as the specification writes it. -/
abbrev mrow (r : Fin 1280) : Fin 384 → EReal :=
  Cert.Msg.msgRow (fun q' => v29 (ix2 r q')) (fun k => v0 (ix2 r k)) (fun k => v9 (ix2 r k))
    (fun k q' => v2 (ix2 k q')) (fun q' => v5 (ix2 0 q')) (fun k q' => v11 (ix2 k q')) (fun q' => v14 (ix2 0 q'))
    (fun k q' => v20 (ix2 k q')) (fun q' => v24 (ix2 0 q'))

/-- The scalar message block is the message block's first 128 columns. -/
theorem scal_apply (r : Fin 1280) (h : Fin 128) :
    k1_pay6 (F := Ideal) v0 v2 v5 v9 v11 v14 v20 v24 v29 (ix2 r h)
      = mrow v0 v2 v5 v9 v11 v14 v20 v24 v29 r (Cert.Msg.third0 h) := by
  unfold k1_pay6
  refine (extractStridedSlice_apply _ _ slices_S1280x384_o0_0_S1280x128 (ix2 r h) (ix2 r (Cert.Msg.third0 h)) (fun a => ?_)).trans
    (msg_apply v0 v2 v5 v9 v11 v14 v20 v24 v29 r (Cert.Msg.third0 h))
  match a with
  | ⟨0, _⟩ => show r.val = 0 + r.val; omega
  | ⟨1, _⟩ => show h.val = 0 + h.val; omega

/-- The second third, columns 128 to 255, scaled by the word for 1/√3. -/
theorem mid_apply (r : Fin 1280) (h : Fin 128) :
    k1_pay7 (F := Ideal) v0 v2 v5 v9 v11 v14 v20 v24 v29 (ix2 r h)
      = mrow v0 v2 v5 v9 v11 v14 v20 v24 v29 r (Cert.Msg.third1 h) * Cert.Msg.cThird := by
  unfold k1_pay7
  rw [mulf_apply, broadcast_apply]
  refine congrArg (· * Cert.Msg.cThird) ?_
  refine (extractStridedSlice_apply _ _ slices_S1280x384_o0_128_S1280x128 (ix2 r h) (ix2 r (Cert.Msg.third1 h)) (fun a => ?_)).trans
    (msg_apply v0 v2 v5 v9 v11 v14 v20 v24 v29 r (Cert.Msg.third1 h))
  match a with
  | ⟨0, _⟩ => show r.val = 0 + r.val; omega
  | ⟨1, _⟩ => show 128 + h.val = 128 + h.val; rfl

/-- The last third, columns 256 to 383. -/
theorem last_apply (r : Fin 1280) (h : Fin 128) :
    k1_pay8 (F := Ideal) v0 v2 v5 v9 v11 v14 v20 v24 v29 (ix2 r h)
      = mrow v0 v2 v5 v9 v11 v14 v20 v24 v29 r (Cert.Msg.third2 h) := by
  unfold k1_pay8
  refine (extractStridedSlice_apply _ _ slices_S1280x384_o0_256_S1280x128 (ix2 r h) (ix2 r (Cert.Msg.third2 h)) (fun a => ?_)).trans
    (msg_apply v0 v2 v5 v9 v11 v14 v20 v24 v29 r (Cert.Msg.third2 h))
  match a with
  | ⟨0, _⟩ => show r.val = 0 + r.val; omega
  | ⟨1, _⟩ => show 256 + h.val = 256 + h.val; rfl

end Thirds

/-! ## The three pieces of the vector message block -/

section Pieces
variable (v35 v36 : FVec Ideal S1280x128 .f32) (v37 : Vec Ideal S1280x384 .f32) (v42 : Vec Ideal S1280x3 .f32)

/-- A column of the direction block, broadcast along the 128 columns of a piece, reads the direction's coordinate. -/
theorem dir_apply (k : Fin 3) (off : ℕ) (hk : k.val = off) (hs : S1280x3.Slices ![0, off] S1280x1) (r : Fin 1280)
    (h : Fin 128) :
    broadcastTo S1280x128 (extractStridedSlice S1280x1 ![0, off] v42 hs) broadcasts_S1280x1_S1280x128 (ix2 r h)
      = v42 (ix2 r k) := by
  refine (broadcastTo_apply _ broadcasts_S1280x1_S1280x128 (ix2 r h) (ix2 r 0) (fun a => match a with
    | ⟨0, _⟩ => by show r.val = if (1280 : ℕ) = 1 then 0 else r.val; rw [if_neg (by decide)]
    | ⟨1, _⟩ => by show (0 : ℕ) = if (1 : ℕ) = 1 then 0 else h.val; rw [if_pos rfl])).trans ?_
  refine extractStridedSlice_apply _ v42 hs (ix2 r 0) (ix2 r k) (fun a => ?_)
  match a with
  | ⟨0, _⟩ => show r.val = 0 + r.val; omega
  | ⟨1, _⟩ => show k.val = off + 0; omega

/-- The piece of the vector message block for space coordinate 0, before its factors are named. -/
theorem piece0_raw (r : Fin 1280) (h : Fin 128) (q : Fin 384) (hq : q.val = 0 + h.val) :
    k1_pay2 (F := Ideal) v35 v36 v37 v42 (ix2 r h)
      = (v37 (ix2 r q) * v35 (ix2 r h) + v36 (ix2 r h) * v42 (ix2 r 0)) * Cert.Msg.cHid := by
  unfold k1_pay2 k1_pay1
  rw [mulf_apply, addf_apply, mulf_apply, mulf_apply, broadcast_apply, shapeCast_self,
    dir_apply v42 0 0 rfl slices_S1280x3_o0_0_S1280x1,
    extractStridedSlice_apply _ v37 slices_S1280x384_o0_0_S1280x128 (ix2 r h) (ix2 r q) (fun a => match a with
      | ⟨0, _⟩ => by show r.val = 0 + r.val; omega
      | ⟨1, _⟩ => by show q.val = 0 + h.val; exact hq)]
  rfl

/-- The piece of the vector message block for space coordinate 1, before its factors are named. -/
theorem piece1_raw (r : Fin 1280) (h : Fin 128) (q : Fin 384) (hq : q.val = 128 + h.val) :
    k1_pay3 (F := Ideal) v35 v36 v37 v42 (ix2 r h)
      = (v37 (ix2 r q) * v35 (ix2 r h) + v36 (ix2 r h) * v42 (ix2 r 1)) * Cert.Msg.cHid := by
  unfold k1_pay3 k1_pay1
  rw [mulf_apply, addf_apply, mulf_apply, mulf_apply, broadcast_apply, shapeCast_self,
    dir_apply v42 1 1 rfl slices_S1280x3_o0_1_S1280x1,
    extractStridedSlice_apply _ v37 slices_S1280x384_o0_128_S1280x128 (ix2 r h) (ix2 r q) (fun a => match a with
      | ⟨0, _⟩ => by show r.val = 0 + r.val; omega
      | ⟨1, _⟩ => by show q.val = 128 + h.val; exact hq)]
  rfl

/-- The piece of the vector message block for space coordinate 2, before its factors are named. -/
theorem piece2_raw (r : Fin 1280) (h : Fin 128) (q : Fin 384) (hq : q.val = 256 + h.val) :
    k1_pay4 (F := Ideal) v35 v36 v37 v42 (ix2 r h)
      = (v37 (ix2 r q) * v35 (ix2 r h) + v36 (ix2 r h) * v42 (ix2 r 2)) * Cert.Msg.cHid := by
  unfold k1_pay4 k1_pay1
  rw [mulf_apply, addf_apply, mulf_apply, mulf_apply, broadcast_apply, shapeCast_self,
    dir_apply v42 2 2 rfl slices_S1280x3_o0_2_S1280x1,
    extractStridedSlice_apply _ v37 slices_S1280x384_o0_256_S1280x128 (ix2 r h) (ix2 r q) (fun a => match a with
      | ⟨0, _⟩ => by show r.val = 0 + r.val; omega
      | ⟨1, _⟩ => by show q.val = 256 + h.val; exact hq)]
  rfl

end Pieces

/-! ## The two result blocks as functions of the block index -/

/-- The space coordinate a flat column of 3 × 128 stands for … -/
def coordOf (q : Fin 384) : Fin 3 := ⟨q.val / 128, by have := q.isLt; omega⟩
/-- … and its column inside that coordinate. -/
def laneOf (q : Fin 384) : Fin 128 := ⟨q.val % 128, Nat.mod_lt _ (by decide)⟩

theorem coordOf_flat (k : Fin 3) (h : Fin 128) (q : Fin 384) (hq : q.val = 128 * k.val + h.val) : coordOf q = k :=
  Fin.ext (by show q.val / 128 = k.val; have := h.isLt; omega)
theorem laneOf_flat (k : Fin 3) (h : Fin 128) (q : Fin 384) (hq : q.val = 128 * k.val + h.val) : laneOf q = h :=
  Fin.ext (by show q.val % 128 = h.val; have := h.isLt; omega)

section Blocks
variable (v0 : Vec Ideal S1280x32 .f32) (v2 : Vec Ideal S32x384 .f32) (v5 : Vec Ideal S1x384 .f32)
  (v9 : Vec Ideal S1280x416 .f32) (v11 : Vec Ideal S416x384 .f32) (v14 : Vec Ideal S1x384 .f32)
  (v20 : Vec Ideal S384x384 .f32) (v24 : Vec Ideal S1x384 .f32) (v29 : Vec Ideal S1280x384 .f32)
  (vs : Vec Ideal S1280x384 .f32) (ev : Vec Ideal S1280x3 .f32)

/-- The scalar message block: entry `(r, h)` is column `h` of row `r`'s message. -/
def scalBlock : S1280x128.Idx → EReal :=
  fun y => mrow v0 v2 v5 v9 v11 v14 v20 v24 v29 (y 0) (Cert.Msg.third0 (y 1))

/-- The vector message block, the three space coordinates laid flat: entry `(r, q)` is `Cert.Msg.vecEntry` of row
    `r`'s message, the gathered vector feature at `(r, q)` and coordinate `q / 128` of row `r`'s direction, at
    column `q % 128`. -/
def vecBlock : S1280x384.Idx → EReal :=
  fun y => Cert.Msg.vecEntry (mrow v0 v2 v5 v9 v11 v14 v20 v24 v29 (y 0)) (vs y) (ev (ix2 (y 0) (coordOf (y 1)))) (laneOf (y 1))

/-- What the kernel stores as the scalar message is `scalBlock`. -/
theorem scal_block : k1_pay6 (F := Ideal) v0 v2 v5 v9 v11 v14 v20 v24 v29 = scalBlock v0 v2 v5 v9 v11 v14 v20 v24 v29 := by
  funext y
  obtain ⟨r, h, rfl⟩ : ∃ (r : Fin 1280) (h : Fin 128), y = ix2 r h := ⟨y 0, y 1, eq_ix2 y⟩
  exact scal_apply v0 v2 v5 v9 v11 v14 v20 v24 v29 r h

/-- The piece for space coordinate 0 is the vector message block read at columns `0 + h`. -/
theorem piece0_apply (r : Fin 1280) (h : Fin 128) (q : Fin 384) (hq : q.val = 0 + h.val) :
    k1_pay2 (F := Ideal) (k1_pay7 v0 v2 v5 v9 v11 v14 v20 v24 v29) (k1_pay8 v0 v2 v5 v9 v11 v14 v20 v24 v29) vs ev (ix2 r h)
      = vecBlock v0 v2 v5 v9 v11 v14 v20 v24 v29 vs ev (ix2 r q) := by
  rw [piece0_raw _ _ vs ev r h q hq, mid_apply, last_apply]
  unfold vecBlock
  show _ = Cert.Msg.vecEntry (mrow v0 v2 v5 v9 v11 v14 v20 v24 v29 r) (vs (ix2 r q)) (ev (ix2 r (coordOf q))) (laneOf q)
  rw [coordOf_flat 0 h q (by rw [hq]; rfl), laneOf_flat 0 h q (by rw [hq]; rfl)]
  rfl

/-- The piece for space coordinate 1 is the vector message block read at columns `128 + h`. -/
theorem piece1_apply (r : Fin 1280) (h : Fin 128) (q : Fin 384) (hq : q.val = 128 + h.val) :
    k1_pay3 (F := Ideal) (k1_pay7 v0 v2 v5 v9 v11 v14 v20 v24 v29) (k1_pay8 v0 v2 v5 v9 v11 v14 v20 v24 v29) vs ev (ix2 r h)
      = vecBlock v0 v2 v5 v9 v11 v14 v20 v24 v29 vs ev (ix2 r q) := by
  rw [piece1_raw _ _ vs ev r h q hq, mid_apply, last_apply]
  unfold vecBlock
  show _ = Cert.Msg.vecEntry (mrow v0 v2 v5 v9 v11 v14 v20 v24 v29 r) (vs (ix2 r q)) (ev (ix2 r (coordOf q))) (laneOf q)
  rw [coordOf_flat 1 h q (by rw [hq]; rfl), laneOf_flat 1 h q (by rw [hq]; rfl)]
  rfl

/-- The piece for space coordinate 2 is the vector message block read at columns `256 + h`. -/
theorem piece2_apply (r : Fin 1280) (h : Fin 128) (q : Fin 384) (hq : q.val = 256 + h.val) :
    k1_pay4 (F := Ideal) (k1_pay7 v0 v2 v5 v9 v11 v14 v20 v24 v29) (k1_pay8 v0 v2 v5 v9 v11 v14 v20 v24 v29) vs ev (ix2 r h)
      = vecBlock v0 v2 v5 v9 v11 v14 v20 v24 v29 vs ev (ix2 r q) := by
  rw [piece2_raw _ _ vs ev r h q hq, mid_apply, last_apply]
  unfold vecBlock
  show _ = Cert.Msg.vecEntry (mrow v0 v2 v5 v9 v11 v14 v20 v24 v29 r) (vs (ix2 r q)) (ev (ix2 r (coordOf q))) (laneOf q)
  rw [coordOf_flat 2 h q (by rw [hq]; rfl), laneOf_flat 2 h q (by rw [hq]; rfl)]
  rfl

end Blocks

end Cert.KernelIdeal.EdgeBlock

end
-- ==== Proof.EdgeValue.lean ====
/-
  The edge messages, region by region: what the second kernel leaves in its two output arrays.

  The second kernel walks the 320000 edges in 250 blocks of 1280 rows. At each block it computes, row by row, the
  edge's message (`Cert.Msg.msgRow`: the gathered source-node row times the gate), stores its first third as the
  scalar message, and stores the vector message in three column slices of 128, one per space coordinate. Every
  row of either result depends only on the same row of the edge arrays, so the blocks written back are the
  restrictions of `Cert.Msg.scalArr` and `Cert.Msg.vecFlat` of the whole message array, and they cover them.
-/
import proofs.«180632_j73641509257758_1_alg».proof.Proof.Gen.KernelIdeal.Frame
import proofs.«180632_j73641509257758_1_alg».proof.Proof.Spec
import proofs.«180632_j73641509257758_1_alg».proof.Proof.EdgeBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

/-- Every edge's message, of the arrays the second region found: the gathered node rows `main_v17`, the radial
    and weight inputs, the three weight matrices and the three bias rows (each 1 × 384, read at row 0). -/
def edgeMsg (c : Dev nD) : Cert.Msg.A2 320000 384 :=
  Cert.Msg.msgArr (V c main_v17) (V c main_arg2) (V c main_arg3) (V c main_arg9) (fun j => V c main_v2 (ix2 0 j))
    (V c main_arg11) (fun j => V c main_v3 (ix2 0 j)) (V c main_arg13) (fun j => V c main_v4 (ix2 0 j))

/-! ## What one grid point leaves in the two output blocks -/

theorem hz : (![0, 0] : Fin 2 → Nat) = fun _ => 0 := funext fun a => match a with | ⟨0, _⟩ => rfl | ⟨1, _⟩ => rfl

/-- The first output block after the body is the scalar message block of the eleven input blocks. -/
theorem scal_out (x0 : Vec Ideal S1280x32 .f32) (x1 : Vec Ideal S1280x416 .f32) (x2 : Vec Ideal S1280x384 .f32)
    (x3 : Vec Ideal S1280x384 .f32) (x4 : Vec Ideal S1280x3 .f32) (x5 : Vec Ideal S32x384 .f32) (x6 : Vec Ideal S1x384 .f32)
    (x7 : Vec Ideal S416x384 .f32) (x8 : Vec Ideal S1x384 .f32) (x9 : Vec Ideal S384x384 .f32) (x10 : Vec Ideal S1x384 .f32) :
    out1_11 (F := Ideal) x0 x1 x2 x3 x4 x5 x6 x7 x8 x9 x10 = EdgeBlock.scalBlock x0 x5 x6 x1 x7 x8 x9 x10 x2 := by
  unfold out1_11
  rw [View.canon_unit_zero hz]
  simp only [View.ld_unit_zero (S := S1280x32) hz, View.ld_unit_zero (S := S32x384) hz, View.ld_unit_zero (S := S1x384) hz, View.ld_unit_zero (S := S1280x416) hz, View.ld_unit_zero (S := S416x384) hz, View.ld_unit_zero (S := S384x384) hz, View.ld_unit_zero (S := S1280x384) hz, View.ld_unit_zero (S := S1280x3) hz]
  exact EdgeBlock.scal_block x0 x5 x6 x1 x7 x8 x9 x10 x2

/-- The second output block after the body's three column stores is the vector message block: each store's payload
    is that block read under its own 128 columns, and the three rectangles cover the 384 columns. -/
theorem vec_out (x0 : Vec Ideal S1280x32 .f32) (x1 : Vec Ideal S1280x416 .f32) (x2 : Vec Ideal S1280x384 .f32)
    (x3 : Vec Ideal S1280x384 .f32) (x4 : Vec Ideal S1280x3 .f32) (x5 : Vec Ideal S32x384 .f32) (x6 : Vec Ideal S1x384 .f32)
    (x7 : Vec Ideal S416x384 .f32) (x8 : Vec Ideal S1x384 .f32) (x9 : Vec Ideal S384x384 .f32) (x10 : Vec Ideal S1x384 .f32) :
    out1_12 (F := Ideal) x0 x1 x2 x3 x4 x5 x6 x7 x8 x9 x10 = EdgeBlock.vecBlock x0 x5 x6 x1 x7 x8 x9 x10 x2 x3 x4 := by
  unfold out1_12
  simp only [View.ld_unit_zero (S := S1280x32) hz, View.ld_unit_zero (S := S32x384) hz, View.ld_unit_zero (S := S1x384) hz, View.ld_unit_zero (S := S1280x416) hz, View.ld_unit_zero (S := S416x384) hz, View.ld_unit_zero (S := S384x384) hz, View.ld_unit_zero (S := S1280x384) hz, View.ld_unit_zero (S := S1280x3) hz]
  funext y
  refine View.canon_apply_of_pieces (Val := Elt Ideal) (S := S1280x384) (e := .f32) (EdgeBlock.vecBlock x0 x5 x6 x1 x7 x8 x9 x10 x2 x3 x4) _ ?_ y (cover1_12 _ _ _ y)
  intro p hp x
  simp only [List.mem_cons, List.mem_nil_iff, or_false] at hp
  rcases hp with rfl | rfl | rfl
  · obtain ⟨r, h, rfl⟩ : ∃ (r : Fin 1280) (h : Fin 128), x = ix2 r h := ⟨x 0, x 1, eq_ix2 x⟩
    refine (EdgeBlock.piece2_apply x0 x5 x6 x1 x7 x8 x9 x10 x2 x3 x4 r h ⟨256 + h.val, by have := h.isLt; omega⟩ rfl).trans
      (congrArg _ (funext fun a => Fin.ext ?_))
    match a with
    | ⟨0, _⟩ => show r.val = 0 + 1 * r.val; omega
    | ⟨1, _⟩ => show 256 + h.val = 256 + 1 * h.val; omega
  · obtain ⟨r, h, rfl⟩ : ∃ (r : Fin 1280) (h : Fin 128), x = ix2 r h := ⟨x 0, x 1, eq_ix2 x⟩
    refine (EdgeBlock.piece1_apply x0 x5 x6 x1 x7 x8 x9 x10 x2 x3 x4 r h ⟨128 + h.val, by have := h.isLt; omega⟩ rfl).trans
      (congrArg _ (funext fun a => Fin.ext ?_))
    match a with
    | ⟨0, _⟩ => show r.val = 0 + 1 * r.val; omega
    | ⟨1, _⟩ => show 128 + h.val = 128 + 1 * h.val; omega
  · obtain ⟨r, h, rfl⟩ : ∃ (r : Fin 1280) (h : Fin 128), x = ix2 r h := ⟨x 0, x 1, eq_ix2 x⟩
    refine (EdgeBlock.piece0_apply x0 x5 x6 x1 x7 x8 x9 x10 x2 x3 x4 r h ⟨0 + h.val, by have := h.isLt; omega⟩ rfl).trans
      (congrArg _ (funext fun a => Fin.ext ?_))
    match a with
    | ⟨0, _⟩ => show r.val = 0 + 1 * r.val; omega
    | ⟨1, _⟩ => show 0 + h.val = 0 + 1 * h.val; omega

/-! ## Where a block sits in its array

The printed index maps, decided once over the 250 grid points: every edge window is at block `(t, 0)`, every weight
window at block `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)

/-- Row `r` of the block at grid point `t` is row `1280·t + r` of the edge arrays. -/
def erow (t : Fin cfg1.N) (r : Fin 1280) : Fin 320000 :=
  ⟨1280 * t.val + r.val, by have := t.isLt; have hN : cfg1.N = 250 := N_1; have := r.isLt; omega⟩

/-! ## The input blocks read off their arrays -/

theorem blk0_apply (c : Dev nD) (t : Fin cfg1.N) (r : Fin 1280) (k : Fin 32) :
    iblk1 (F := Ideal) V c 0 t (ix2 r k) = V c main_arg2 (ix2 (erow t r) k) := by
  obtain ⟨e0, e1⟩ := idx1_0 t
  unfold iblk1
  show V c main_arg2 (((cfg1.win 0).blk t).view.emb (ix2 r k)) = V c main_arg2 (ix2 (erow t r) k)
  refine congrArg (V c main_arg2) (funext fun a => Fin.ext ?_)
  match a with
  | ⟨0, _⟩ => show win1_0.index t (0 : Fin 2) * 1280 + 1 * r.val = 1280 * t.val + r.val; omega
  | ⟨1, _⟩ => show win1_0.index t (1 : Fin 2) * 32 + 1 * k.val = k.val; omega

theorem blk1_apply (c : Dev nD) (t : Fin cfg1.N) (r : Fin 1280) (k : Fin 416) :
    iblk1 (F := Ideal) V c 1 t (ix2 r k) = V c main_arg3 (ix2 (erow t r) k) := by
  obtain ⟨e0, e1⟩ := idx1_1 t
  unfold iblk1
  show V c main_arg3 (((cfg1.win 1).blk t).view.emb (ix2 r k)) = V c main_arg3 (ix2 (erow t r) k)
  refine congrArg (V c main_arg3) (funext fun a => Fin.ext ?_)
  match a with
  | ⟨0, _⟩ => show win1_1.index t (0 : Fin 2) * 1280 + 1 * r.val = 1280 * t.val + r.val; omega
  | ⟨1, _⟩ => show win1_1.index t (1 : Fin 2) * 416 + 1 * k.val = k.val; omega

theorem blk2_apply (c : Dev nD) (t : Fin cfg1.N) (r : Fin 1280) (k : Fin 384) :
    iblk1 (F := Ideal) V c 2 t (ix2 r k) = V c main_v17 (ix2 (erow t r) k) := by
  obtain ⟨e0, e1⟩ := idx1_2 t
  unfold iblk1
  show V c main_v17 (((cfg1.win 2).blk t).view.emb (ix2 r k)) = V c main_v17 (ix2 (erow t r) k)
  refine congrArg (V c main_v17) (funext fun a => Fin.ext ?_)
  match a with
  | ⟨0, _⟩ => show win1_2.index t (0 : Fin 2) * 1280 + 1 * r.val = 1280 * t.val + r.val; omega
  | ⟨1, _⟩ => show win1_2.index t (1 : Fin 2) * 384 + 1 * k.val = k.val; omega

theorem blk3_apply (c : Dev nD) (t : Fin cfg1.N) (r : Fin 1280) (k : Fin 384) :
    iblk1 (F := Ideal) V c 3 t (ix2 r k) = V c main_v24 (ix2 (erow t r) k) := by
  obtain ⟨e0, e1⟩ := idx1_3 t
  unfold iblk1
  show V c main_v24 (((cfg1.win 3).blk t).view.emb (ix2 r k)) = V c main_v24 (ix2 (erow t r) k)
  refine congrArg (V c main_v24) (funext fun a => Fin.ext ?_)
  match a with
  | ⟨0, _⟩ => show win1_3.index t (0 : Fin 2) * 1280 + 1 * r.val = 1280 * t.val + r.val; omega
  | ⟨1, _⟩ => show win1_3.index t (1 : Fin 2) * 384 + 1 * k.val = k.val; omega

theorem blk4_apply (c : Dev nD) (t : Fin cfg1.N) (r : Fin 1280) (k : Fin 3) :
    iblk1 (F := Ideal) V c 4 t (ix2 r k) = V c main_arg4 (ix2 (erow t r) k) := by
  obtain ⟨e0, e1⟩ := idx1_4 t
  unfold iblk1
  show V c main_arg4 (((cfg1.win 4).blk t).view.emb (ix2 r k)) = V c main_arg4 (ix2 (erow t r) k)
  refine congrArg (V c main_arg4) (funext fun a => Fin.ext ?_)
  match a with
  | ⟨0, _⟩ => show win1_4.index t (0 : Fin 2) * 1280 + 1 * r.val = 1280 * t.val + r.val; omega
  | ⟨1, _⟩ => show win1_4.index t (1 : Fin 2) * 3 + 1 * k.val = k.val; omega

theorem blk5_apply (c : Dev nD) (t : Fin cfg1.N) (y : S32x384.Idx) :
    iblk1 (F := Ideal) V c 5 t y = V c main_arg9 y := by
  obtain ⟨e0, e1⟩ := idx1_5 t
  unfold iblk1
  show V c main_arg9 (((cfg1.win 5).blk t).view.emb y) = V c main_arg9 y
  refine congrArg (V c main_arg9) (funext fun a => Fin.ext ?_)
  match a with
  | ⟨0, _⟩ => show win1_5.index t (0 : Fin 2) * 32 + 1 * (y 0).val = (y 0).val; omega
  | ⟨1, _⟩ => show win1_5.index t (1 : Fin 2) * 384 + 1 * (y 1).val = (y 1).val; omega

theorem blk6_apply (c : Dev nD) (t : Fin cfg1.N) (y : S1x384.Idx) :
    iblk1 (F := Ideal) V c 6 t y = V c main_v2 y := by
  obtain ⟨e0, e1⟩ := idx1_6 t
  unfold iblk1
  show V c main_v2 (((cfg1.win 6).blk t).view.emb y) = V c main_v2 y
  refine congrArg (V c main_v2) (funext fun a => Fin.ext ?_)
  match a with
  | ⟨0, _⟩ => show win1_6.index t (0 : Fin 2) * 1 + 1 * (y 0).val = (y 0).val; omega
  | ⟨1, _⟩ => show win1_6.index t (1 : Fin 2) * 384 + 1 * (y 1).val = (y 1).val; omega

theorem blk7_apply (c : Dev nD) (t : Fin cfg1.N) (y : S416x384.Idx) :
    iblk1 (F := Ideal) V c 7 t y = V c main_arg11 y := by
  obtain ⟨e0, e1⟩ := idx1_7 t
  unfold iblk1
  show V c main_arg11 (((cfg1.win 7).blk t).view.emb y) = V c main_arg11 y
  refine congrArg (V c main_arg11) (funext fun a => Fin.ext ?_)
  match a with
  | ⟨0, _⟩ => show win1_7.index t (0 : Fin 2) * 416 + 1 * (y 0).val = (y 0).val; omega
  | ⟨1, _⟩ => show win1_7.index t (1 : Fin 2) * 384 + 1 * (y 1).val = (y 1).val; omega

theorem blk8_apply (c : Dev nD) (t : Fin cfg1.N) (y : S1x384.Idx) :
    iblk1 (F := Ideal) V c 8 t y = V c main_v3 y := by
  obtain ⟨e0, e1⟩ := idx1_8 t
  unfold iblk1
  show V c main_v3 (((cfg1.win 8).blk t).view.emb y) = V c main_v3 y
  refine congrArg (V c main_v3) (funext fun a => Fin.ext ?_)
  match a with
  | ⟨0, _⟩ => show win1_8.index t (0 : Fin 2) * 1 + 1 * (y 0).val = (y 0).val; omega
  | ⟨1, _⟩ => show win1_8.index t (1 : Fin 2) * 384 + 1 * (y 1).val = (y 1).val; omega

theorem blk9_apply (c : Dev nD) (t : Fin cfg1.N) (y : S384x384.Idx) :
    iblk1 (F := Ideal) V c 9 t y = V c main_arg13 y := by
  obtain ⟨e0, e1⟩ := idx1_9 t
  unfold iblk1
  show V c main_arg13 (((cfg1.win 9).blk t).view.emb y) = V c main_arg13 y
  refine congrArg (V c main_arg13) (funext fun a => Fin.ext ?_)
  match a with
  | ⟨0, _⟩ => show win1_9.index t (0 : Fin 2) * 384 + 1 * (y 0).val = (y 0).val; omega
  | ⟨1, _⟩ => show win1_9.index t (1 : Fin 2) * 384 + 1 * (y 1).val = (y 1).val; omega

theorem blk10_apply (c : Dev nD) (t : Fin cfg1.N) (y : S1x384.Idx) :
    iblk1 (F := Ideal) V c 10 t y = V c main_v4 y := by
  obtain ⟨e0, e1⟩ := idx1_10 t
  unfold iblk1
  show V c main_v4 (((cfg1.win 10).blk t).view.emb y) = V c main_v4 y
  refine congrArg (V c main_v4) (funext fun a => Fin.ext ?_)
  match a with
  | ⟨0, _⟩ => show win1_10.index t (0 : Fin 2) * 1 + 1 * (y 0).val = (y 0).val; omega
  | ⟨1, _⟩ => show win1_10.index t (1 : Fin 2) * 384 + 1 * (y 1).val = (y 1).val; omega

/-! ## A block's message rows are the array's -/

/-- Row `r` of the message block at grid point `t` is row `1280·t + r` of the message array: the three edge blocks
    are read under the same rows, and the weight matrices and bias rows are whole. -/
theorem msg_row_eq (c : Dev nD) (t : Fin cfg1.N) (r : Fin 1280) :
    EdgeBlock.mrow (iblk1 (F := Ideal) V c 0 t) (iblk1 V c 5 t) (iblk1 V c 6 t) (iblk1 V c 1 t) (iblk1 V c 7 t)
        (iblk1 V c 8 t) (iblk1 V c 9 t) (iblk1 V c 10 t) (iblk1 V c 2 t) r
      = Cert.Msg.row (edgeMsg V c) (erow t r) := by
  have a2 : (fun q' => iblk1 (F := Ideal) V c 2 t (ix2 r q')) = Cert.Msg.row (V c main_v17) (erow t r) :=
    funext fun q' => blk2_apply V c t r q'
  have a0 : (fun k => iblk1 (F := Ideal) V c 0 t (ix2 r k)) = Cert.Msg.row (V c main_arg2) (erow t r) :=
    funext fun k => blk0_apply V c t r k
  have a1 : (fun k => iblk1 (F := Ideal) V c 1 t (ix2 r k)) = Cert.Msg.row (V c main_arg3) (erow t r) :=
    funext fun k => blk1_apply V c t r k
  have a5 : (fun k q' => iblk1 (F := Ideal) V c 5 t (ix2 k q')) = Cert.Msg.mat (V c main_arg9) :=
    funext fun k => funext fun q' => blk5_apply V c t (ix2 k q')
  have a6 : (fun q' => iblk1 (F := Ideal) V c 6 t (ix2 0 q')) = fun j => V c main_v2 (ix2 0 j) :=
    funext fun q' => blk6_apply V c t (ix2 0 q')
  have a7 : (fun k q' => iblk1 (F := Ideal) V c 7 t (ix2 k q')) = Cert.Msg.mat (V c main_arg11) :=
    funext fun k => funext fun q' => blk7_apply V c t (ix2 k q')
  have a8 : (fun q' => iblk1 (F := Ideal) V c 8 t (ix2 0 q')) = fun j => V c main_v3 (ix2 0 j) :=
    funext fun q' => blk8_apply V c t (ix2 0 q')
  have a9 : (fun k q' => iblk1 (F := Ideal) V c 9 t (ix2 k q')) = Cert.Msg.mat (V c main_arg13) :=
    funext fun k => funext fun q' => blk9_apply V c t (ix2 k q')
  have a10 : (fun q' => iblk1 (F := Ideal) V c 10 t (ix2 0 q')) = fun j => V c main_v4 (ix2 0 j) :=
    funext fun q' => blk10_apply V c t (ix2 0 q')
  show Cert.Msg.msgRow (fun q' => iblk1 (F := Ideal) V c 2 t (ix2 r q')) (fun k => iblk1 (F := Ideal) V c 0 t (ix2 r k))
      (fun k => iblk1 (F := Ideal) V c 1 t (ix2 r k)) (fun k q' => iblk1 (F := Ideal) V c 5 t (ix2 k q'))
      (fun q' => iblk1 (F := Ideal) V c 6 t (ix2 0 q')) (fun k q' => iblk1 (F := Ideal) V c 7 t (ix2 k q'))
      (fun q' => iblk1 (F := Ideal) V c 8 t (ix2 0 q')) (fun k q' => iblk1 (F := Ideal) V c 9 t (ix2 k q'))
      (fun q' => iblk1 (F := Ideal) V c 10 t (ix2 0 q')) = _
  rw [a2, a0, a1, a5, a6, a7, a8, a9, a10]
  rfl

/-! ## What each grid point writes back -/

/-- Point `t` writes back block `t` of the scalar messages. -/
theorem scal_flushed (c : Dev nD) (t : Fin cfg1.N) :
    (dat1 (F := Ideal) V c).flushed 11 t
      = ((cfg1.win 11).blk t).view.read (Elt Ideal) (Cert.Msg.scalArr (edgeMsg V c)) := by
  show (cfg1.win 11).cut (grid1.coords t) ((dat1 V c).after 11 t) = _
  rw [after1_11, scal_out]
  funext j
  obtain ⟨r, h, rfl⟩ : ∃ (r : Fin 1280) (h : Fin 128), j = ix2 r h := ⟨j 0, j 1, eq_ix2 j⟩
  obtain ⟨e0, e1⟩ := idx1_11 t
  have he : ((cfg1.win 11).blk t).view.emb (ix2 r h) = (ix2 (erow t r) h : S320000x128.Idx) := funext fun a => Fin.ext (by
    match a with
    | ⟨0, _⟩ => show win1_11.index t (0 : Fin 2) * 1280 + 1 * r.val = 1280 * t.val + r.val; omega
    | ⟨1, _⟩ => show win1_11.index t (1 : Fin 2) * 128 + 1 * h.val = h.val; omega)
  show EdgeBlock.scalBlock (iblk1 (F := Ideal) V c 0 t) (iblk1 V c 5 t) (iblk1 V c 6 t) (iblk1 V c 1 t) (iblk1 V c 7 t)
      (iblk1 V c 8 t) (iblk1 V c 9 t) (iblk1 V c 10 t) (iblk1 V c 2 t) (ix2 r h)
    = Cert.Msg.scalArr (edgeMsg V c) (((cfg1.win 11).blk t).view.emb (ix2 r h))
  rw [he]
  exact congrFun (msg_row_eq V c t r) (Cert.Msg.third0 h)

/-- Point `t` writes back block `t` of the vector messages: the gathered vector features and the edge directions
    are read under the same rows as the message. -/
theorem vec_flushed (c : Dev nD) (t : Fin cfg1.N) :
    (dat1 (F := Ideal) V c).flushed 12 t
      = ((cfg1.win 12).blk t).view.read (Elt Ideal)
          (Cert.Msg.vecFlat (edgeMsg V c) (V c main_v24) (V c main_arg4)) := by
  show (cfg1.win 12).cut (grid1.coords t) ((dat1 V c).after 12 t) = _
  rw [after1_12, vec_out]
  funext j
  obtain ⟨r, q, rfl⟩ : ∃ (r : Fin 1280) (q : Fin 384), j = ix2 r q := ⟨j 0, j 1, eq_ix2 j⟩
  obtain ⟨e0, e1⟩ := idx1_12 t
  have he : ((cfg1.win 12).blk t).view.emb (ix2 r q) = (ix2 (erow t r) q : S320000x384.Idx) := funext fun a => Fin.ext (by
    match a with
    | ⟨0, _⟩ => show win1_12.index t (0 : Fin 2) * 1280 + 1 * r.val = 1280 * t.val + r.val; omega
    | ⟨1, _⟩ => show win1_12.index t (1 : Fin 2) * 384 + 1 * q.val = q.val; omega)
  show EdgeBlock.vecBlock (iblk1 (F := Ideal) V c 0 t) (iblk1 V c 5 t) (iblk1 V c 6 t) (iblk1 V c 1 t) (iblk1 V c 7 t)
      (iblk1 V c 8 t) (iblk1 V c 9 t) (iblk1 V c 10 t) (iblk1 V c 2 t) (iblk1 V c 3 t) (iblk1 V c 4 t) (ix2 r q)
    = Cert.Msg.vecFlat (edgeMsg V c) (V c main_v24) (V c main_arg4) (((cfg1.win 12).blk t).view.emb (ix2 r q))
  rw [he]
  show Cert.Msg.vecEntry (EdgeBlock.mrow (iblk1 (F := Ideal) V c 0 t) (iblk1 V c 5 t) (iblk1 V c 6 t) (iblk1 V c 1 t)
        (iblk1 V c 7 t) (iblk1 V c 8 t) (iblk1 V c 9 t) (iblk1 V c 10 t) (iblk1 V c 2 t) r)
      (iblk1 (F := Ideal) V c 3 t (ix2 r q)) (iblk1 (F := Ideal) V c 4 t (ix2 r (EdgeBlock.coordOf q))) (EdgeBlock.laneOf q)
    = Cert.Msg.vecEntry (Cert.Msg.row (edgeMsg V c) (erow t r)) (V c main_v24 (ix2 (erow t r) q))
        (V c main_arg4 (ix2 (erow t r) (EdgeBlock.coordOf q))) (EdgeBlock.laneOf q)
  rw [msg_row_eq V c t r, blk3_apply V c t r q, blk4_apply V c t r (EdgeBlock.coordOf q)]

/-! ## The blocks cover the arrays -/

/-- An index of the array is in point `t`'s block iff each coordinate is in the block's range on its axis. -/
theorem mem_blk11 (t : Fin cfg1.N) (i : S320000x128.Idx) :
    i ∈ ((cfg1.win 11).blk t).view.set ↔ ∀ a : Fin 2, win1_11.index t a * S1280x128.size a ≤ (i a).val ∧ (i a).val < win1_11.index t a * S1280x128.size a + S1280x128.size a := by
  show i ∈ ((View.whole main_v25_0).slice (win1_11.rect t)).set ↔ _
  rw [View.set_slice_whole, Rect.mem_set_unit]
  exact Iff.rfl

/-- Row `i 0` of the array lies in the block of grid point `(i 0) / 1280`, and every point writes its block back. -/
theorem scal_cover (i : S320000x128.Idx) :
    ∃ t : Fin cfg1.N, (cfg1.win 11).flush t = true ∧ i ∈ ((cfg1.win 11).blk t).view.set := by
  have hi0 : (i 0).val < 320000 := idx2_lt0 i
  have hi1 : (i 1).val < 128 := idx2_lt1 i
  have hN : cfg1.N = 250 := N_1
  have ht : (i 0).val / 1280 < cfg1.N := by omega
  obtain ⟨e0, e1⟩ := idx1_11 ⟨(i 0).val / 1280, ht⟩
  refine ⟨⟨(i 0).val / 1280, ht⟩, flush1_11 _, ?_⟩
  rw [mem_blk11]
  intro a
  match a with
  | ⟨0, _⟩ =>
    show win1_11.index ⟨(i 0).val / 1280, ht⟩ (0 : Fin 2) * 1280 ≤ (i 0).val ∧ (i 0).val < win1_11.index ⟨(i 0).val / 1280, ht⟩ (0 : Fin 2) * 1280 + 1280
    rw [e0]; show (i 0).val / 1280 * 1280 ≤ (i 0).val ∧ (i 0).val < (i 0).val / 1280 * 1280 + 1280; omega
  | ⟨1, _⟩ =>
    show win1_11.index ⟨(i 0).val / 1280, ht⟩ (1 : Fin 2) * 128 ≤ (i 1).val ∧ (i 1).val < win1_11.index ⟨(i 0).val / 1280, ht⟩ (1 : Fin 2) * 128 + 128
    rw [e1]; omega

/-- An index of the array is in point `t`'s block iff each coordinate is in the block's range on its axis. -/
theorem mem_blk12 (t : Fin cfg1.N) (i : S320000x384.Idx) :
    i ∈ ((cfg1.win 12).blk t).view.set ↔ ∀ a : Fin 2, win1_12.index t a * S1280x384.size a ≤ (i a).val ∧ (i a).val < win1_12.index t a * S1280x384.size a + S1280x384.size a := by
  show i ∈ ((View.whole main_v25_1).slice (win1_12.rect t)).set ↔ _
  rw [View.set_slice_whole, Rect.mem_set_unit]
  exact Iff.rfl

/-- Row `i 0` of the array lies in the block of grid point `(i 0) / 1280`, and every point writes its block back. -/
theorem vec_cover (i : S320000x384.Idx) :
    ∃ t : Fin cfg1.N, (cfg1.win 12).flush t = true ∧ i ∈ ((cfg1.win 12).blk t).view.set := by
  have hi0 : (i 0).val < 320000 := idx2_lt0 i
  have hi1 : (i 1).val < 384 := idx2_lt1 i
  have hN : cfg1.N = 250 := N_1
  have ht : (i 0).val / 1280 < cfg1.N := by omega
  obtain ⟨e0, e1⟩ := idx1_12 ⟨(i 0).val / 1280, ht⟩
  refine ⟨⟨(i 0).val / 1280, ht⟩, flush1_12 _, ?_⟩
  rw [mem_blk12]
  intro a
  match a with
  | ⟨0, _⟩ =>
    show win1_12.index ⟨(i 0).val / 1280, ht⟩ (0 : Fin 2) * 1280 ≤ (i 0).val ∧ (i 0).val < win1_12.index ⟨(i 0).val / 1280, ht⟩ (0 : Fin 2) * 1280 + 1280
    rw [e0]; show (i 0).val / 1280 * 1280 ≤ (i 0).val ∧ (i 0).val < (i 0).val / 1280 * 1280 + 1280; omega
  | ⟨1, _⟩ =>
    show win1_12.index ⟨(i 0).val / 1280, ht⟩ (1 : Fin 2) * 384 ≤ (i 1).val ∧ (i 1).val < win1_12.index ⟨(i 0).val / 1280, ht⟩ (1 : Fin 2) * 384 + 384
    rw [e1]; omega

/-! ## The two arrays after the run -/

/-- After the second kernel its first output array holds the scalar messages. -/
theorem scal_final (c : Dev nD) :
    (dat1 (F := Ideal) V c).arrAt 11 cfg1.N = Cert.Msg.scalArr (edgeMsg V c) := by
  exact (dat1 (F := Ideal) V c).arrAt_eq_of_cover 11 (Cert.Msg.scalArr (edgeMsg V c)) (fun t _ => scal_flushed V c t) scal_cover

/-- After the second kernel its second output array holds the vector messages, the three space coordinates laid
    flat, of the message array, the gathered vector features `main_v24` and the edge directions. -/
theorem vec_final (c : Dev nD) :
    (dat1 (F := Ideal) V c).arrAt 12 cfg1.N = Cert.Msg.vecFlat (edgeMsg V c) (V c main_v24) (V c main_arg4) := by
  exact (dat1 (F := Ideal) V c).arrAt_eq_of_cover 12 (Cert.Msg.vecFlat (edgeMsg V c) (V c main_v24) (V c main_arg4))
    (fun t _ => vec_flushed V c t) vec_cover

end Cert.KernelIdeal.EdgeValue

end
-- ==== Proof.KernelValue.lean ====
/-
  The kernel program's two results as functions of its arguments.

  @main is five stretches: five reshapes of the bias vectors into 1 × n rows; the first kernel (node projection);
  twenty-three host operations (the source and target node numbers cut out of the edge list, the source numbers
  normalised, the node rows and the flattened vector features gathered by source); the second kernel (edge
  messages); and nine host operations (the scalar and vector messages scatter-added by target node, the vector
  result cut back into 3 × 128). The contents of every buffer at each boundary are a fold through these stretches;
  here the fold is read at the buffers that matter, down to the launch contents of the arguments.
-/
import proofs.«180632_j73641509257758_1_alg».proof.Proof.Gen.KernelIdeal.Frame
import proofs.«180632_j73641509257758_1_alg».proof.Proof.NodeValue
import proofs.«180632_j73641509257758_1_alg».proof.Proof.EdgeValue
import proofs.«180632_j73641509257758_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

/-! ## The node numbers -/

/-- Row `r` of the 2 × 320000 edge list, as a vector of 320000 node numbers. -/
abbrev edgeRow0 (e : IVec S2x320000 32) : IVec S320000 32 :=
  shapeCast _ (extractStridedSlice S1x320000 ![0, 0] e slices_S2x320000_S1x320000_0_0) shapeCasts_S1x320000_S320000
abbrev edgeRow1 (e : IVec S2x320000 32) : IVec S320000 32 :=
  shapeCast _ (extractStridedSlice S1x320000 ![1, 0] e slices_S2x320000_S1x320000_1_0) shapeCasts_S1x320000_S320000

/-- The source node numbers as the gathers take them: a negative number has 10000 added, and the vector is laid
    out as a 320000 × 1 column. -/
def srcIdx (e : IVec S2x320000 32) : IVec S320000x1 32 :=
  broadcastInDim S320000x1 ![0] bcast_S320000_S320000x1_0
    (select (cmpi .slt (edgeRow0 e) (broadcastInDim S320000 ![] bcast_S_S320000 (constantI S_ 32 0#32)))
      (addi (edgeRow0 e) (broadcastInDim S320000 ![] bcast_S_S320000 (constantI S_ 32 10000#32))) (edgeRow0 e))

/-- The target node numbers as the scatters take them: a 320000 × 1 column. -/
def dstIdx (e : IVec S2x320000 32) : IVec S320000x1 32 :=
  broadcastInDim S320000x1 ![0] bcast_S320000_S320000x1_0 (edgeRow1 e)

/-- The launch contents of the arguments on core `c`. -/
abbrev a0 (c : Dev nD) : FVec Ideal S10000x128 .f32 := m ((c : Thread nD τ).loc main_arg0)
abbrev a1 (c : Dev nD) : FVec Ideal S10000x3x128 .f32 := m ((c : Thread nD τ).loc main_arg1)
abbrev a2 (c : Dev nD) : FVec Ideal S320000x32 .f32 := m ((c : Thread nD τ).loc main_arg2)
abbrev a3 (c : Dev nD) : FVec Ideal S320000x416 .f32 := m ((c : Thread nD τ).loc main_arg3)
abbrev a4 (c : Dev nD) : FVec Ideal S320000x3 .f32 := m ((c : Thread nD τ).loc main_arg4)
abbrev a5 (c : Dev nD) : FVec Ideal S128x128 .f32 := m ((c : Thread nD τ).loc main_arg5)
abbrev a6 (c : Dev nD) : FVec Ideal S128 .f32 := m ((c : Thread nD τ).loc main_arg6)
abbrev a7 (c : Dev nD) : FVec Ideal S128x384 .f32 := m ((c : Thread nD τ).loc main_arg7)
abbrev a8 (c : Dev nD) : FVec Ideal S384 .f32 := m ((c : Thread nD τ).loc main_arg8)
abbrev a9 (c : Dev nD) : FVec Ideal S32x384 .f32 := m ((c : Thread nD τ).loc main_arg9)
abbrev a10 (c : Dev nD) : FVec Ideal S384 .f32 := m ((c : Thread nD τ).loc main_arg10)
abbrev a11 (c : Dev nD) : FVec Ideal S416x384 .f32 := m ((c : Thread nD τ).loc main_arg11)
abbrev a12 (c : Dev nD) : FVec Ideal S384 .f32 := m ((c : Thread nD τ).loc main_arg12)
abbrev a13 (c : Dev nD) : FVec Ideal S384x384 .f32 := m ((c : Thread nD τ).loc main_arg13)
abbrev a14 (c : Dev nD) : FVec Ideal S384 .f32 := m ((c : Thread nD τ).loc main_arg14)
abbrev a15 (c : Dev nD) : IVec S2x320000 32 := m ((c : Thread nD τ).loc main_arg15)

/-- A bias vector reshaped into a 1 × n row, read at row 0, is the vector. -/
theorem row_of_reshape {n : Nat} (v : (⟨1, ![n]⟩ : Shape).Idx → EReal) (h : (⟨1, ![n]⟩ : Shape).ShapeCasts ⟨2, ![1, n]⟩) (k : Fin n) :
    shapeCast (⟨2, ![1, n]⟩ : Shape) v h (ix2 0 k) = v (ix1 k) := by
  refine (shapeCast_addUnit_apply ![n] v h (ix2 0 k)).trans (congrArg v (funext fun a => ?_))
  match a with
  | ⟨0, _⟩ => rfl

/-! ## The first stretch: what the first kernel finds -/

section first
variable (c : Dev nD)

theorem v1_arg0 : (V1 m ρ c main_arg0 : FVec Ideal S10000x128 .f32) = a0 m c := by
  show StableHlo.after hostOps0 (W0 m ρ c) (Proc.devRef .tc main_arg0) = _
  after_results <;> rfl
theorem v1_arg5 : (V1 m ρ c main_arg5 : FVec Ideal S128x128 .f32) = a5 m c := by
  show StableHlo.after hostOps0 (W0 m ρ c) (Proc.devRef .tc main_arg5) = _
  after_results <;> rfl
theorem v1_arg7 : (V1 m ρ c main_arg7 : FVec Ideal S128x384 .f32) = a7 m c := by
  show StableHlo.after hostOps0 (W0 m ρ c) (Proc.devRef .tc main_arg7) = _
  after_results <;> rfl
theorem v1_v0 : (V1 m ρ c main_v0 : FVec Ideal S1x128 .f32) = shapeCast S1x128 (a6 m c) shapeCasts_S128_S1x128 := by
  show StableHlo.after hostOps0 (W0 m ρ c) (Proc.devRef .tc main_v0) = _
  after_results <;> rfl
theorem v1_v1 : (V1 m ρ c main_v1 : FVec Ideal S1x384 .f32) = shapeCast S1x384 (a8 m c) shapeCasts_S384_S1x384 := by
  show StableHlo.after hostOps0 (W0 m ρ c) (Proc.devRef .tc main_v1) = _
  after_results <;> rfl

end first

/-! ## After the first kernel -/

/-- Every node's projected row, of the launch contents. -/
def nodeK (c : Dev nD) : Cert.Msg.A2 10000 384 :=
  Cert.Msg.nodeArr (a0 m c) (a5 m c) (fun k => a6 m c (ix1 k)) (a7 m c) (fun j => a8 m c (ix1 j))

section second
variable (c : Dev nD)

/-- The first kernel's output array holds the node projection. -/
theorem w2_v5 : (W2 m ρ c (Proc.devRef .tc main_v5) : FVec Ideal S10000x384 .f32) = nodeK m c := by
  refine (W2_arr m ρ c 5).trans ?_
  rw [Cert.KernelIdeal.NodeValue.node_final]
  unfold nodeK
  simp only [v1_arg0 m ρ c, v1_arg5 m ρ c, v1_arg7 m ρ c, v1_v0 m ρ c, v1_v1 m ρ c, row_of_reshape]

/-- Every other buffer the later stretches read is as the first stretch left it. -/
theorem w2_arg1 : (W2 m ρ c (Proc.devRef .tc main_arg1) : FVec Ideal S10000x3x128 .f32) = a1 m c :=
  (W2_of_ne m ρ c main_arg1 (by decide)).trans (by
    show StableHlo.after hostOps0 (W0 m ρ c) (Proc.devRef .tc main_arg1) = _
    after_results <;> rfl)
theorem w2_arg2 : (W2 m ρ c (Proc.devRef .tc main_arg2) : FVec Ideal S320000x32 .f32) = a2 m c :=
  (W2_of_ne m ρ c main_arg2 (by decide)).trans (by
    show StableHlo.after hostOps0 (W0 m ρ c) (Proc.devRef .tc main_arg2) = _
    after_results <;> rfl)
theorem w2_arg3 : (W2 m ρ c (Proc.devRef .tc main_arg3) : FVec Ideal S320000x416 .f32) = a3 m c :=
  (W2_of_ne m ρ c main_arg3 (by decide)).trans (by
    show StableHlo.after hostOps0 (W0 m ρ c) (Proc.devRef .tc main_arg3) = _
    after_results <;> rfl)
theorem w2_arg4 : (W2 m ρ c (Proc.devRef .tc main_arg4) : FVec Ideal S320000x3 .f32) = a4 m c :=
  (W2_of_ne m ρ c main_arg4 (by decide)).trans (by
    show StableHlo.after hostOps0 (W0 m ρ c) (Proc.devRef .tc main_arg4) = _
    after_results <;> rfl)
theorem w2_arg9 : (W2 m ρ c (Proc.devRef .tc main_arg9) : FVec Ideal S32x384 .f32) = a9 m c :=
  (W2_of_ne m ρ c main_arg9 (by decide)).trans (by
    show StableHlo.after hostOps0 (W0 m ρ c) (Proc.devRef .tc main_arg9) = _
    after_results <;> rfl)
theorem w2_arg11 : (W2 m ρ c (Proc.devRef .tc main_arg11) : FVec Ideal S416x384 .f32) = a11 m c :=
  (W2_of_ne m ρ c main_arg11 (by decide)).trans (by
    show StableHlo.after hostOps0 (W0 m ρ c) (Proc.devRef .tc main_arg11) = _
    after_results <;> rfl)
theorem w2_arg13 : (W2 m ρ c (Proc.devRef .tc main_arg13) : FVec Ideal S384x384 .f32) = a13 m c :=
  (W2_of_ne m ρ c main_arg13 (by decide)).trans (by
    show StableHlo.after hostOps0 (W0 m ρ c) (Proc.devRef .tc main_arg13) = _
    after_results <;> rfl)
theorem w2_arg15 : (W2 m ρ c (Proc.devRef .tc main_arg15) : IVec S2x320000 32) = a15 m c :=
  (W2_of_ne m ρ c main_arg15 (by decide)).trans (by
    show StableHlo.after hostOps0 (W0 m ρ c) (Proc.devRef .tc main_arg15) = _
    after_results <;> rfl)
theorem w2_v2 : (W2 m ρ c (Proc.devRef .tc main_v2) : FVec Ideal S1x384 .f32) = shapeCast S1x384 (a10 m c) shapeCasts_S384_S1x384 :=
  (W2_of_ne m ρ c main_v2 (by decide)).trans (by
    show StableHlo.after hostOps0 (W0 m ρ c) (Proc.devRef .tc main_v2) = _
    after_results <;> rfl)
theorem w2_v3 : (W2 m ρ c (Proc.devRef .tc main_v3) : FVec Ideal S1x384 .f32) = shapeCast S1x384 (a12 m c) shapeCasts_S384_S1x384 :=
  (W2_of_ne m ρ c main_v3 (by decide)).trans (by
    show StableHlo.after hostOps0 (W0 m ρ c) (Proc.devRef .tc main_v3) = _
    after_results <;> rfl)
theorem w2_v4 : (W2 m ρ c (Proc.devRef .tc main_v4) : FVec Ideal S1x384 .f32) = shapeCast S1x384 (a14 m c) shapeCasts_S384_S1x384 :=
  (W2_of_ne m ρ c main_v4 (by decide)).trans (by
    show StableHlo.after hostOps0 (W0 m ρ c) (Proc.devRef .tc main_v4) = _
    after_results <;> rfl)

end second

/-! ## The middle stretch: what the second kernel finds -/

/-- The source nodes' vector features, flat, one row per edge. -/
def vecSrcK (c : Dev nD) : Cert.Msg.A2 320000 384 :=
  Host.gather gather_S10000x384_S320000x1_S320000x384_1_0_n_n_0_1_1384
    (shapeCast S10000x384 (a1 m c) shapeCasts_S10000x3x128_S10000x384) (srcIdx (a15 m c))

/-- The source nodes' projected rows, one row per edge. -/
def nodeSrcK (c : Dev nD) : Cert.Msg.A2 320000 384 :=
  Host.gather gather_S10000x384_S320000x1_S320000x384_1_0_n_n_0_1_1384 (nodeK m c) (srcIdx (a15 m c))

section third
variable (c : Dev nD)

theorem v3_v17 : (V3 m ρ c main_v17 : FVec Ideal S320000x384 .f32) = nodeSrcK m c := by
  have h : (V3 m ρ c main_v17 : FVec Ideal S320000x384 .f32)
      = Host.gather gather_S10000x384_S320000x1_S320000x384_1_0_n_n_0_1_1384
          (W2 m ρ c (Proc.devRef .tc main_v5)) (srcIdx (W2 m ρ c (Proc.devRef .tc main_arg15))) := by
    show StableHlo.after hostOps1 (W2 m ρ c) (Proc.devRef .tc main_v17) = _
    unfold srcIdx
    after_results <;> rfl
  rw [h, w2_v5 m ρ c, w2_arg15 m ρ c]
  rfl

theorem v3_v24 : (V3 m ρ c main_v24 : FVec Ideal S320000x384 .f32) = vecSrcK m c := by
  have h : (V3 m ρ c main_v24 : FVec Ideal S320000x384 .f32)
      = Host.gather gather_S10000x384_S320000x1_S320000x384_1_0_n_n_0_1_1384
          (shapeCast S10000x384 (W2 m ρ c (Proc.devRef .tc main_arg1) : FVec Ideal S10000x3x128 .f32) shapeCasts_S10000x3x128_S10000x384)
          (srcIdx (W2 m ρ c (Proc.devRef .tc main_arg15))) := by
    show StableHlo.after hostOps1 (W2 m ρ c) (Proc.devRef .tc main_v24) = _
    unfold srcIdx
    after_results_simp
    refine congr (congrArg _ ?_) rfl
    funext i
    rfl
  rw [h, w2_arg1 m ρ c, w2_arg15 m ρ c]
  rfl

theorem v3_arg2 : (V3 m ρ c main_arg2 : FVec Ideal S320000x32 .f32) = a2 m c := by
  refine Eq.trans ?_ (w2_arg2 m ρ c)
  show StableHlo.after hostOps1 (W2 m ρ c) (Proc.devRef .tc main_arg2) = _
  after_results <;> rfl
theorem v3_arg3 : (V3 m ρ c main_arg3 : FVec Ideal S320000x416 .f32) = a3 m c := by
  refine Eq.trans ?_ (w2_arg3 m ρ c)
  show StableHlo.after hostOps1 (W2 m ρ c) (Proc.devRef .tc main_arg3) = _
  after_results <;> rfl
theorem v3_arg4 : (V3 m ρ c main_arg4 : FVec Ideal S320000x3 .f32) = a4 m c := by
  refine Eq.trans ?_ (w2_arg4 m ρ c)
  show StableHlo.after hostOps1 (W2 m ρ c) (Proc.devRef .tc main_arg4) = _
  after_results <;> rfl
theorem v3_arg9 : (V3 m ρ c main_arg9 : FVec Ideal S32x384 .f32) = a9 m c := by
  refine Eq.trans ?_ (w2_arg9 m ρ c)
  show StableHlo.after hostOps1 (W2 m ρ c) (Proc.devRef .tc main_arg9) = _
  after_results <;> rfl
theorem v3_arg11 : (V3 m ρ c main_arg11 : FVec Ideal S416x384 .f32) = a11 m c := by
  refine Eq.trans ?_ (w2_arg11 m ρ c)
  show StableHlo.after hostOps1 (W2 m ρ c) (Proc.devRef .tc main_arg11) = _
  after_results <;> rfl
theorem v3_arg13 : (V3 m ρ c main_arg13 : FVec Ideal S384x384 .f32) = a13 m c := by
  refine Eq.trans ?_ (w2_arg13 m ρ c)
  show StableHlo.after hostOps1 (W2 m ρ c) (Proc.devRef .tc main_arg13) = _
  after_results <;> rfl
theorem v3_v2 : (V3 m ρ c main_v2 : FVec Ideal S1x384 .f32) = shapeCast S1x384 (a10 m c) shapeCasts_S384_S1x384 := by
  refine Eq.trans ?_ (w2_v2 m ρ c)
  show StableHlo.after hostOps1 (W2 m ρ c) (Proc.devRef .tc main_v2) = _
  after_results <;> rfl
theorem v3_v3 : (V3 m ρ c main_v3 : FVec Ideal S1x384 .f32) = shapeCast S1x384 (a12 m c) shapeCasts_S384_S1x384 := by
  refine Eq.trans ?_ (w2_v3 m ρ c)
  show StableHlo.after hostOps1 (W2 m ρ c) (Proc.devRef .tc main_v3) = _
  after_results <;> rfl
theorem v3_v4 : (V3 m ρ c main_v4 : FVec Ideal S1x384 .f32) = shapeCast S1x384 (a14 m c) shapeCasts_S384_S1x384 := by
  refine Eq.trans ?_ (w2_v4 m ρ c)
  show StableHlo.after hostOps1 (W2 m ρ c) (Proc.devRef .tc main_v4) = _
  after_results <;> rfl

/-- The target node numbers after the middle stretch. -/
theorem w3_v9 : (W3 m ρ c (Proc.devRef .tc main_v9) : IVec S320000 32) = edgeRow1 (a15 m c) := by
  have h : (W3 m ρ c (Proc.devRef .tc main_v9) : IVec S320000 32) = edgeRow1 (W2 m ρ c (Proc.devRef .tc main_arg15)) := by
    show StableHlo.after hostOps1 (W2 m ρ c) (Proc.devRef .tc main_v9) = _
    after_results <;> rfl
  rw [h, w2_arg15 m ρ c]

end third

/-! ## After the second kernel, and the last stretch -/

/-- Every edge's message, of the launch contents. -/
def msgK (c : Dev nD) : Cert.Msg.A2 320000 384 :=
  Cert.Msg.msgArr (nodeSrcK m c) (a2 m c) (a3 m c) (a9 m c) (fun j => a10 m c (ix1 j)) (a11 m c)
    (fun j => a12 m c (ix1 j)) (a13 m c) (fun j => a14 m c (ix1 j))

section fourth
variable (c : Dev nD)

/-- What the second kernel computes its messages from is the launch contents read through the first two stretches
    and the first kernel. -/
theorem edgeMsg_eq : Cert.KernelIdeal.EdgeValue.edgeMsg (V3 m ρ) c = msgK m c := by
  unfold Cert.KernelIdeal.EdgeValue.edgeMsg msgK
  simp only [v3_v17 m ρ c, v3_arg2 m ρ c, v3_arg3 m ρ c, v3_arg9 m ρ c, v3_arg11 m ρ c, v3_arg13 m ρ c,
    v3_v2 m ρ c, v3_v3 m ρ c, v3_v4 m ρ c, row_of_reshape]

theorem w4_v25_0 : (W4 m ρ c (Proc.devRef .tc main_v25_0) : FVec Ideal S320000x128 .f32) = Cert.Msg.scalArr (msgK m c) := by
  refine (W4_arr m ρ c 11).trans ?_
  rw [Cert.KernelIdeal.EdgeValue.scal_final, edgeMsg_eq]

theorem w4_v25_1 : (W4 m ρ c (Proc.devRef .tc main_v25_1) : FVec Ideal S320000x384 .f32)
    = Cert.Msg.vecFlat (msgK m c) (vecSrcK m c) (a4 m c) := by
  refine (W4_arr m ρ c 12).trans ?_
  rw [Cert.KernelIdeal.EdgeValue.vec_final, edgeMsg_eq, v3_v24 m ρ c, v3_arg4 m ρ c]

theorem w4_v9 : (W4 m ρ c (Proc.devRef .tc main_v9) : IVec S320000 32) = edgeRow1 (a15 m c) :=
  (W4_of_ne m ρ c main_v9 (by decide)).trans (w3_v9 m ρ c)

/-- The first result: the scalar messages scatter-added by target node. -/
theorem dx_val : (W5 m ρ c (Proc.devRef .tc main_v28) : FVec Ideal S10000x128 .f32)
    = Host.scatterAdd (F := Ideal) scatter_S10000x128_S320000x1_S320000x128_1_0_0_1
        (broadcastInDim S10000x128 ![] bcast_S_S10000x128 (constant (F := Ideal) S_ .f32 0x00000000#32))
        (dstIdx (a15 m c)) (Cert.Msg.scalArr (msgK m c)) := by
  have h : (W5 m ρ c (Proc.devRef .tc main_v28) : FVec Ideal S10000x128 .f32)
      = Host.scatterAdd (F := Ideal) scatter_S10000x128_S320000x1_S320000x128_1_0_0_1
          (broadcastInDim S10000x128 ![] bcast_S_S10000x128 (constant (F := Ideal) S_ .f32 0x00000000#32))
          (broadcastInDim S320000x1 ![0] bcast_S320000_S320000x1_0 (W4 m ρ c (Proc.devRef .tc main_v9)))
          (W4 m ρ c (Proc.devRef .tc main_v25_0)) := by
    show StableHlo.after hostOps2 (W4 m ρ c) (Proc.devRef .tc main_v28) = _
    after_results <;> rfl
  rw [h, w4_v9 m ρ c, w4_v25_0 m ρ c]
  rfl

/-- The second result: the vector messages, flat, scatter-added by target node and cut back into 3 × 128. -/
theorem dvec_val : (W5 m ρ c (Proc.devRef .tc main_v32) : FVec Ideal S10000x3x128 .f32)
    = shapeCast S10000x3x128
        (Host.scatterAdd (F := Ideal) scatter_S10000x384_S320000x1_S320000x384_1_0_0_1
          (broadcastInDim S10000x384 ![] bcast_S_S10000x384 (constant (F := Ideal) S_ .f32 0x00000000#32))
          (dstIdx (a15 m c)) (Cert.Msg.vecFlat (msgK m c) (vecSrcK m c) (a4 m c)))
        shapeCasts_S10000x384_S10000x3x128 := by
  have h : (W5 m ρ c (Proc.devRef .tc main_v32) : FVec Ideal S10000x3x128 .f32)
      = shapeCast S10000x3x128
          (Host.scatterAdd (F := Ideal) scatter_S10000x384_S320000x1_S320000x384_1_0_0_1
            (broadcastInDim S10000x384 ![] bcast_S_S10000x384 (constant (F := Ideal) S_ .f32 0x00000000#32))
            (broadcastInDim S320000x1 ![0] bcast_S320000_S320000x1_0 (W4 m ρ c (Proc.devRef .tc main_v9)))
            (W4 m ρ c (Proc.devRef .tc main_v25_1)))
          shapeCasts_S10000x384_S10000x3x128 := by
    show StableHlo.after hostOps2 (W4 m ρ c) (Proc.devRef .tc main_v32) = _
    after_results_simp
    funext i
    rfl
  rw [h, w4_v9 m ρ c, w4_v25_1 m ρ c]
  rfl

end fourth

end Cert.KernelIdeal.KernelValue

end
-- ==== Proof.RefValue.lean ====
/-
  The reference program's stages are the mathematics of `Cert.Msg`.

  Read one operation at a time at an index, the reference computes: the node projection (two dense layers, the
  silu between them spelt as `z · (1 / (1 + e^(-z)))`, which is `z · σ(z)` on the extended reals); the message as
  the gathered node row times the gate; its first third as the scalar message; and the vector message per space
  coordinate from the second and last thirds, the gathered vector feature and the edge direction.
-/
import proofs.«180632_j73641509257758_1_alg».proof.Proof.Gen.ReferenceIdeal.Read
import proofs.«180632_j73641509257758_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Read Idealize.ShloMosaic Idealize.ShloMosaic.ValueIdx

variable (x0 : (⟨S10000x128, .f32⟩ : BufTy).Contents (Elt Ideal)) (x1 : (⟨S10000x3x128, .f32⟩ : BufTy).Contents (Elt Ideal)) (x2 : (⟨S320000x32, .f32⟩ : BufTy).Contents (Elt Ideal)) (x3 : (⟨S320000x416, .f32⟩ : BufTy).Contents (Elt Ideal)) (x4 : (⟨S320000x3, .f32⟩ : BufTy).Contents (Elt Ideal)) (x5 : (⟨S128x128, .f32⟩ : BufTy).Contents (Elt Ideal)) (x6 : (⟨S128, .f32⟩ : BufTy).Contents (Elt Ideal)) (x7 : (⟨S128x384, .f32⟩ : BufTy).Contents (Elt Ideal)) (x8 : (⟨S384, .f32⟩ : BufTy).Contents (Elt Ideal)) (x9 : (⟨S32x384, .f32⟩ : BufTy).Contents (Elt Ideal)) (x10 : (⟨S384, .f32⟩ : BufTy).Contents (Elt Ideal)) (x11 : (⟨S416x384, .f32⟩ : BufTy).Contents (Elt Ideal)) (x12 : (⟨S384, .f32⟩ : BufTy).Contents (Elt Ideal)) (x13 : (⟨S384x384, .f32⟩ : BufTy).Contents (Elt Ideal)) (x14 : (⟨S384, .f32⟩ : BufTy).Contents (Elt Ideal)) (x15 : (⟨S2x320000, .i32⟩ : BufTy).Contents (Elt Ideal))

/-- An equation between two indices of rank one, two or three, checked coordinate by coordinate. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

/-! ## The word for one, and the silu as the programs spell it -/

/-- The binary32 word 0x3F800000 denotes the number one. -/
theorem one_word : Ideal.ofBits .f32 0x3F800000#32 = 1 := by
  simp [Ideal.ofBits, Ideal.ieee, -EReal.coe_mul]; norm_num

/-- `z · (1 / (1 + e^(-z)))`, both ones being the word for one, is `z · σ(z)`: the logistic function on the
    extended reals is defined as that quotient. -/
theorem silu_spelt (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = Cert.Msg.silu z := by
  simp only [Ideal.mulf_def, Ideal.hostDivf_def, Ideal.addf_def, Ideal.hostUnary_exp_def, Ideal.hostNegf_def,
    Ideal.negf_def, Ideal.ofBits_def, one_word]
  rfl

/-! ## The node projection -/

/-- The first dense layer of the node projection, at row `r` and column `k`. -/
theorem node_dense (r : Fin 10000) (k : Fin 128) :
    val_main_v3 (F := Ideal) x0 x5 x6 (ix2 r k)
      = Cert.Msg.affine (Cert.Msg.row x0 r) (Cert.Msg.mat x5) (fun k => x6 (ix1 k)) k := by
  have el : ∀ q : Fin 128, lidx_main_v0 (ix2 r k) q = ix2 r q := fun q => by idx2
  have er : ∀ q : Fin 128, ridx_main_v0 (ix2 r k) q = ix2 q k := fun q => by idx2
  have eb : idx_main_v1 (idx_main_v2 (ix2 r k)) = ix1 k := by idx1
  rw [val_main_v3_apply, val_main_v0_apply, val_main_v2_apply, val_main_v1_apply, eb]
  simp only [el, er, Ideal.addf_def]
  rfl

/-- The hidden layer of the node projection: the silu of the first dense layer. -/
theorem node_hidden (r : Fin 10000) (k : Fin 128) :
    val_main_v4 (F := Ideal) x0 x5 x6 (ix2 r k)
      = Cert.Msg.silu (Cert.Msg.affine (Cert.Msg.row x0 r) (Cert.Msg.mat x5) (fun k => x6 (ix1 k)) k) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, node_dense, silu_spelt]

/-- The reference's node projection is every node's projected row. -/
theorem ref_node : val_main_v8 (F := Ideal) x0 x5 x6 x7 x8
    = Cert.Msg.nodeArr x0 x5 (fun k => x6 (ix1 k)) x7 (fun j => x8 (ix1 j)) := by
  funext i
  obtain ⟨r, j, rfl⟩ : ∃ (r : Fin 10000) (j : Fin 384), i = ix2 r j := ⟨i 0, i 1, eq_ix2 i⟩
  have el : ∀ q : Fin 128, lidx_main_v5 (ix2 r j) q = ix2 r q := fun q => by idx2
  have er : ∀ q : Fin 128, ridx_main_v5 (ix2 r j) q = ix2 q j := fun q => by idx2
  have eb : idx_main_v6 (idx_main_v7 (ix2 r j)) = ix1 j := by idx1
  rw [val_main_v8_apply, val_main_v5_apply, val_main_v7_apply, val_main_v6_apply, eb]
  simp only [el, er, node_hidden, Ideal.addf_def]
  rfl

/-! ## The message -/

/-- The radial layer, at edge `e` and column `q`. -/
theorem radial_dense (e : Fin 320000) (q : Fin 384) :
    val_main_v12 (F := Ideal) x2 x9 x10 (ix2 e q)
      = Cert.Msg.affine (Cert.Msg.row x2 e) (Cert.Msg.mat x9) (fun j => x10 (ix1 j)) q := by
  have el : ∀ k : Fin 32, lidx_main_v9 (ix2 e q) k = ix2 e k := fun k => by idx2
  have er : ∀ k : Fin 32, ridx_main_v9 (ix2 e q) k = ix2 k q := fun k => by idx2
  have eb : idx_main_v10 (idx_main_v11 (ix2 e q)) = ix1 q := by idx1
  rw [val_main_v12_apply, val_main_v9_apply, val_main_v11_apply, val_main_v10_apply, eb]
  simp only [el, er, Ideal.addf_def]
  rfl

/-- The first dense layer of the weight network, at edge `e` and column `k`. -/
theorem weight_dense (e : Fin 320000) (k : Fin 384) :
    val_main_v16 (F := Ideal) x3 x11 x12 (ix2 e k)
      = Cert.Msg.affine (Cert.Msg.row x3 e) (Cert.Msg.mat x11) (fun j => x12 (ix1 j)) k := by
  have el : ∀ q : Fin 416, lidx_main_v13 (ix2 e k) q = ix2 e q := fun q => by idx2
  have er : ∀ q : Fin 416, ridx_main_v13 (ix2 e k) q = ix2 q k := fun q => by idx2
  have eb : idx_main_v14 (idx_main_v15 (ix2 e k)) = ix1 k := by idx1
  rw [val_main_v16_apply, val_main_v13_apply, val_main_v15_apply, val_main_v14_apply, eb]
  simp only [el, er, Ideal.addf_def]
  rfl

/-- The hidden layer of the weight network: the silu of its first dense layer. -/
theorem weight_hidden (e : Fin 320000) (k : Fin 384) :
    val_main_v17 (F := Ideal) x3 x11 x12 (ix2 e k)
      = Cert.Msg.silu (Cert.Msg.affine (Cert.Msg.row x3 e) (Cert.Msg.mat x11) (fun j => x12 (ix1 j)) k) := by
  rw [val_main_v17_apply, val_main_call1_v5_apply, val_main_call1_v4_apply, val_main_call1_cst_0_apply,
    val_main_call1_v3_apply, val_main_call1_v2_apply, val_main_call1_cst_apply, val_main_call1_v1_apply,
    val_main_call1_v0_apply, weight_dense, silu_spelt]

/-- The weight network's output, at edge `e` and column `q`. -/
theorem weight_out (e : Fin 320000) (q : Fin 384) :
    val_main_v21 (F := Ideal) x3 x11 x12 x13 x14 (ix2 e q)
      = Cert.Msg.affine (fun k => Cert.Msg.silu (Cert.Msg.affine (Cert.Msg.row x3 e) (Cert.Msg.mat x11)
          (fun j => x12 (ix1 j)) k)) (Cert.Msg.mat x13) (fun j => x14 (ix1 j)) q := by
  have el : ∀ k : Fin 384, lidx_main_v18 (ix2 e q) k = ix2 e k := fun k => by idx2
  have er : ∀ k : Fin 384, ridx_main_v18 (ix2 e q) k = ix2 k q := fun k => by idx2
  have eb : idx_main_v19 (idx_main_v20 (ix2 e q)) = ix1 q := by idx1
  rw [val_main_v21_apply, val_main_v18_apply, val_main_v20_apply, val_main_v19_apply, eb]
  simp only [el, er, weight_hidden, Ideal.addf_def]
  rfl

/-- The gate: the radial layer times the weight network's output. -/
theorem gate (e : Fin 320000) (q : Fin 384) :
    val_main_v22 (F := Ideal) x2 x3 x9 x10 x11 x12 x13 x14 (ix2 e q)
      = Cert.Msg.gateRow (Cert.Msg.row x2 e) (Cert.Msg.row x3 e) (Cert.Msg.mat x9) (fun j => x10 (ix1 j))
          (Cert.Msg.mat x11) (fun j => x12 (ix1 j)) (Cert.Msg.mat x13) (fun j => x14 (ix1 j)) q := by
  rw [val_main_v22_apply, radial_dense, weight_out, Ideal.mulf_def]
  rfl

/-- The reference's message array is every edge's message, of the gathered node rows. -/
theorem ref_msg : val_main_v34 (F := Ideal) x0 x2 x3 x5 x6 x7 x8 x9 x10 x11 x12 x13 x14 x15
    = Cert.Msg.msgArr (val_main_v33 (F := Ideal) x0 x5 x6 x7 x8 x15) x2 x3 x9 (fun j => x10 (ix1 j)) x11
        (fun j => x12 (ix1 j)) x13 (fun j => x14 (ix1 j)) := by
  funext i
  obtain ⟨e, q, rfl⟩ : ∃ (e : Fin 320000) (q : Fin 384), i = ix2 e q := ⟨i 0, i 1, eq_ix2 i⟩
  rw [val_main_v34_apply, gate, Ideal.mulf_def]
  generalize val_main_v33 (F := Ideal) x0 x5 x6 x7 x8 x15 = xs
  rfl

/-- The reference's scalar messages are the first third of its message array. -/
theorem ref_scal : val_main_v35 (F := Ideal) x0 x2 x3 x5 x6 x7 x8 x9 x10 x11 x12 x13 x14 x15 = Cert.Msg.scalArr (val_main_v34 (F := Ideal) x0 x2 x3 x5 x6 x7 x8 x9 x10 x11 x12 x13 x14 x15) := by
  funext i
  obtain ⟨e, h, rfl⟩ : ∃ (e : Fin 320000) (h : Fin 128), i = ix2 e h := ⟨i 0, i 1, eq_ix2 i⟩
  have e0 : idx_main_v35 (ix2 e h) = ix2 e (Cert.Msg.third0 h) := by idx2
  rw [val_main_v35_apply, e0]
  generalize val_main_v34 (F := Ideal) x0 x2 x3 x5 x6 x7 x8 x9 x10 x11 x12 x13 x14 x15 = M
  rfl

/-- The reference's vector messages, edges × 3 × 128, of its message array, the gathered vector features and the
    edge directions. -/
theorem ref_vec : val_main_v57 (F := Ideal) x0 x1 x2 x3 x4 x5 x6 x7 x8 x9 x10 x11 x12 x13 x14 x15
    = Cert.Msg.vecCube (val_main_v34 (F := Ideal) x0 x2 x3 x5 x6 x7 x8 x9 x10 x11 x12 x13 x14 x15) (val_main_v46 (F := Ideal) x1 x15) x4 := by
  funext i
  obtain ⟨e, k, h, rfl⟩ : ∃ (e : Fin 320000) (k : Fin 3) (h : Fin 128), i = ix3 e k h := ⟨i 0, i 1, i 2, eq_ix3 i⟩
  have e1 : idx_main_v36 (idx_main_v47 (idx_main_v48 (ix3 e k h))) = ix2 e (Cert.Msg.third1 h) := by idx2
  have e2 : idx_main_v37 (idx_main_v50 (idx_main_v52 (ix3 e k h))) = ix2 e (Cert.Msg.third2 h) := by idx2
  have e3 : idx_main_v51 (idx_main_v53 (ix3 e k h)) = ix2 e k := by idx2
  rw [val_main_v57_apply, val_main_v56_apply, val_main_cst_3_apply, val_main_v55_apply, val_main_v49_apply,
    val_main_v48_apply, val_main_v47_apply, val_main_v39_apply, val_main_v36_apply, val_main_v38_apply,
    val_main_cst_apply, val_main_v54_apply, val_main_v52_apply, val_main_v50_apply, val_main_v37_apply,
    val_main_v53_apply, val_main_v51_apply, e1, e2, e3]
  generalize val_main_v34 (F := Ideal) x0 x2 x3 x5 x6 x7 x8 x9 x10 x11 x12 x13 x14 x15 = M
  generalize val_main_v46 (F := Ideal) x1 x15 = vs
  rfl

end Cert.ReferenceIdeal.RefValue

end
-- ==== Proof.Rows.lean ====
/-
  Rows gathered and rows scattered, in two layouts of the same numbers.

  A node's vector feature is 3 × 128 numbers. One program keeps them as a 3 × 128 slab per node, the other lays the
  slab flat as one row of 384, column `k · 128 + h` for space coordinate `k` and column `h`.

  * Gathering whole rows by a list of node numbers commutes with the flattening: both read the same (clamped) node,
    and the flat row's column `k · 128 + h` is the slab's entry `(k, h)`.
  * Scatter-adding whole rows by a list of node numbers commutes with it as well: an update row lands on node `n`
    exactly when its node number, read signed, is `n` (a number outside the table drops the row), in either
    layout; so each entry of the result is the sum, over the edges landing on its node, of the same numbers.
-/
import proofs.«180632_j73641509257758_1_alg».proof.Proof.Gen.KernelIdeal
import proofs.«180632_j73641509257758_1_alg».proof.Proof.Gen.ReferenceIdeal
import proofs.«180632_j73641509257758_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Rows

open Idealize.ShloMosaic Idealize.ShloMosaic.ValueIdx

/-- The two programs gather node rows of a 10000 × 384 table by the same rule. -/
theorem gather_rule_eq : Cert.KernelIdeal.gather_S10000x384_S320000x1_S320000x384_1_0_n_n_0_1_1384
    = Cert.ReferenceIdeal.gather_S10000x384_S320000x1_S320000x384_1_0_n_n_0_1_1384 := rfl

/-- The two programs scatter-add 128-wide rows by the same rule. -/
theorem scatter_rule_eq : Cert.KernelIdeal.scatter_S10000x128_S320000x1_S320000x128_1_0_0_1
    = Cert.ReferenceIdeal.scatter_S10000x128_S320000x1_S320000x128_1_0_0_1 := rfl

/-! ## Gathering whole rows: the entry each result index reads

Both rules take the node number of result row `e` from the index list at `(e, 0)`, read it signed and clamp it into
`0 … 9999`; the remaining result coordinates are the coordinates inside the row (resp. the slab). -/

/-- The slab rule, for a 10000 × 3 × 128 table. -/
abbrev gSlab := Cert.ReferenceIdeal.gather_S10000x3x128_S320000x1_S320000x3x128_12_0_n_n_0_1_13128
/-- The row rule, for a 10000 × 384 table. -/
abbrev gRow := Cert.KernelIdeal.gather_S10000x384_S320000x1_S320000x384_1_0_n_n_0_1_1384

/-- Slab rule, node axis: the clamped node number of the result's edge. -/
theorem gSlab_op0 (idx : IVec Cert.KernelIdeal.S320000x1 32) (i : Cert.ReferenceIdeal.S320000x3x128.Idx) :
    (gSlab.operandIdx i idx 0).val = min (idx (ix2 (i 0) 0)).toInt.toNat 9999 := by
  show gSlab.start i idx 0 + gSlab.batchCoord i 0 + gSlab.offCoord i 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin Cert.ReferenceIdeal.S10000x3x128.rank) ∈ gSlab.startIndexMap by decide)]
  have hsi : gSlab.siIdx i ⟨List.idxOf (0 : Fin Cert.ReferenceIdeal.S10000x3x128.rank) gSlab.startIndexMap,
      List.idxOf_lt_length_iff.2 (by decide)⟩ = ix2 (i 0) 0 := by
    funext b; refine Fin.ext ?_
    match b with
    | ⟨0, _⟩ => rfl
    | ⟨1, _⟩ => rfl
  rw [hsi]
  rfl

/-- Slab rule, space axis: the result's own space coordinate. -/
theorem gSlab_op1 (idx : IVec Cert.KernelIdeal.S320000x1 32) (i : Cert.ReferenceIdeal.S320000x3x128.Idx) :
    (gSlab.operandIdx i idx 1).val = (i 1).val := by
  show gSlab.start i idx 1 + gSlab.batchCoord i 1 + gSlab.offCoord i 1 = _
  rw [GatherDims.batchCoord_eq_zero _ _ _ List.not_mem_nil]
  unfold GatherDims.start GatherDims.offCoord
  rw [dif_neg (show ¬ (1 : Fin Cert.ReferenceIdeal.S10000x3x128.rank) ∈ gSlab.startIndexMap by decide),
    dif_pos (show (1 : Fin Cert.ReferenceIdeal.S10000x3x128.rank) ∈ gSlab.sKept by decide)]
  simp only [Nat.add_zero, Nat.zero_add]
  rfl

/-- Slab rule, column axis: the result's own column. -/
theorem gSlab_op2 (idx : IVec Cert.KernelIdeal.S320000x1 32) (i : Cert.ReferenceIdeal.S320000x3x128.Idx) :
    (gSlab.operandIdx i idx 2).val = (i 2).val := by
  show gSlab.start i idx 2 + gSlab.batchCoord i 2 + gSlab.offCoord i 2 = _
  rw [GatherDims.batchCoord_eq_zero _ _ _ List.not_mem_nil]
  unfold GatherDims.start GatherDims.offCoord
  rw [dif_neg (show ¬ (2 : Fin Cert.ReferenceIdeal.S10000x3x128.rank) ∈ gSlab.startIndexMap by decide),
    dif_pos (show (2 : Fin Cert.ReferenceIdeal.S10000x3x128.rank) ∈ gSlab.sKept by decide)]
  simp only [Nat.add_zero, Nat.zero_add]
  rfl

/-- Row rule, node axis: the clamped node number of the result's edge. -/
theorem gRow_op0 (idx : IVec Cert.KernelIdeal.S320000x1 32) (j : Cert.KernelIdeal.S320000x384.Idx) :
    (gRow.operandIdx j idx 0).val = min (idx (ix2 (j 0) 0)).toInt.toNat 9999 := by
  show gRow.start j idx 0 + gRow.batchCoord j 0 + gRow.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin Cert.KernelIdeal.S10000x384.rank) ∈ gRow.startIndexMap by decide)]
  have hsi : gRow.siIdx j ⟨List.idxOf (0 : Fin Cert.KernelIdeal.S10000x384.rank) gRow.startIndexMap,
      List.idxOf_lt_length_iff.2 (by decide)⟩ = ix2 (j 0) 0 := by
    funext b; refine Fin.ext ?_
    match b with
    | ⟨0, _⟩ => rfl
    | ⟨1, _⟩ => rfl
  rw [hsi]
  rfl

/-- Row rule, column axis: the result's own column. -/
theorem gRow_op1 (idx : IVec Cert.KernelIdeal.S320000x1 32) (j : Cert.KernelIdeal.S320000x384.Idx) :
    (gRow.operandIdx j idx 1).val = (j 1).val := by
  show gRow.start j idx 1 + gRow.batchCoord j 1 + gRow.offCoord j 1 = _
  rw [GatherDims.batchCoord_eq_zero _ _ _ List.not_mem_nil]
  unfold GatherDims.start GatherDims.offCoord
  rw [dif_neg (show ¬ (1 : Fin Cert.KernelIdeal.S10000x384.rank) ∈ gRow.startIndexMap by decide),
    dif_pos (show (1 : Fin Cert.KernelIdeal.S10000x384.rank) ∈ gRow.sKept by decide)]
  simp only [Nat.add_zero, Nat.zero_add]
  rfl

/-- Gathering slabs of the 10000 × 3 × 128 table is gathering rows of the table laid flat. -/
theorem gather_flat (T : Cert.Msg.A3 10000 3 128) (idx : IVec Cert.KernelIdeal.S320000x1 32)
    (i : Cert.ReferenceIdeal.S320000x3x128.Idx) :
    Host.gather Cert.ReferenceIdeal.gather_S10000x3x128_S320000x1_S320000x3x128_12_0_n_n_0_1_13128 T idx i
      = Host.gather Cert.KernelIdeal.gather_S10000x384_S320000x1_S320000x384_1_0_n_n_0_1_1384
          (shapeCast Cert.KernelIdeal.S10000x384 T Cert.KernelIdeal.Facts₀.shapeCasts_S10000x3x128_S10000x384) idx
          (ix2 (i 0) (Cert.Msg.flat3 (i 1) (i 2))) := by
  unfold Host.gather
  symm
  -- the flat table at a flat position is the slab table at the index with the same row-major position
  refine shapeCast_apply T _ _ _ ?_
  rw [Shape.rowMajor_val_three, Shape.rowMajor_val_two, gSlab_op0, gSlab_op1, gSlab_op2, gRow_op0, gRow_op1]
  show (min (idx (ix2 (i 0) 0)).toInt.toNat 9999 * 3 + (i 1).val) * 128 + (i 2).val
    = min (idx (ix2 (i 0) 0)).toInt.toNat 9999 * 384 + ((i 1).val * 128 + (i 2).val)
  omega

/-! ## Scatter-adding whole rows: where each update entry lands

An update entry of edge `e` goes to the node whose number the index list holds at `(e, 0)`, read signed and NOT
clamped; inside the node's row (resp. slab) it keeps its own column (resp. space coordinate and column). It is
dropped when that node number is outside `0 … 9999`. -/

/-- The row rule, for a 10000 × 384 table. -/
abbrev scRow := Cert.KernelIdeal.scatter_S10000x384_S320000x1_S320000x384_1_0_0_1
/-- The slab rule, for a 10000 × 3 × 128 table. -/
abbrev scSlab := Cert.ReferenceIdeal.scatter_S10000x3x128_S320000x1_S320000x3x128_12_0_0_1

/-- An update lands on entry `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 : (d.start j idx a + (d.window j a : Int)).toNat = (i a).val := congrArg Fin.val h1
      have := (h a).1
      omega
    · intro hall
      congr 1
      funext a
      refine Fin.ext ?_
      show (d.start j idx a + (d.window j a : Int)).toNat = (i a).val
      rw [hall a]; exact Int.toNat_natCast _
  · rename_i h
    constructor
    · intro heq; cases heq
    · intro hall
      exfalso; apply h; intro a
      rw [hall a]
      exact ⟨Int.natCast_nonneg _, by exact_mod_cast (i a).isLt⟩

/-- Row rule, node axis: the window starts at the edge's node number, read signed. -/
theorem scRow_start0 (idx : IVec Cert.KernelIdeal.S320000x1 32) (j : Cert.KernelIdeal.S320000x384.Idx) :
    scRow.start j idx 0 = (idx (ix2 (j 0) 0)).toInt := by
  unfold ScatterDims.start
  rw [dif_pos (show (0 : Fin Cert.KernelIdeal.S10000x384.rank) ∈ scRow.scatterDimsToOperandDims by decide)]
  have hsi : scRow.siIdx j ⟨List.idxOf (0 : Fin Cert.KernelIdeal.S10000x384.rank) scRow.scatterDimsToOperandDims,
      List.idxOf_lt_length_iff.2 (by decide)⟩ = ix2 (j 0) 0 := by
    funext b; refine Fin.ext ?_
    match b with
    | ⟨0, _⟩ => rfl
    | ⟨1, _⟩ => rfl
  rw [hsi]
  rfl

/-- Row rule, column axis: the window starts at column 0. -/
theorem scRow_start1 (idx : IVec Cert.KernelIdeal.S320000x1 32) (j : Cert.KernelIdeal.S320000x384.Idx) :
    scRow.start j idx 1 = 0 := by
  unfold ScatterDims.start
  rw [dif_neg (show ¬ (1 : Fin Cert.KernelIdeal.S10000x384.rank) ∈ scRow.scatterDimsToOperandDims by decide)]

/-- Row rule, node axis: the window is one node tall. -/
theorem scRow_window0 (j : Cert.KernelIdeal.S320000x384.Idx) : scRow.window j 0 = 0 := by
  unfold ScatterDims.window
  rw [dif_neg (show ¬ (0 : Fin Cert.KernelIdeal.S10000x384.rank) ∈ scRow.sKept by decide)]

/-- Row rule, column axis: the update entry's own column. -/
theorem scRow_window1 (j : Cert.KernelIdeal.S320000x384.Idx) : scRow.window j 1 = (j 1).val := by
  unfold ScatterDims.window
  rw [dif_pos (show (1 : Fin Cert.KernelIdeal.S10000x384.rank) ∈ scRow.sKept by decide)]
  rfl

/-- A flat update entry `(e, c)` lands on the flat entry `(n, q)` exactly when edge `e`'s node number, read signed,
    is `n` and the columns agree. -/
theorem scRow_lands (idx : IVec Cert.KernelIdeal.S320000x1 32) (e : Fin 320000) (c : Fin 384) (n : Fin 10000) (q : Fin 384) :
    scRow.resultIdx? (ix2 e c) idx = some (ix2 n q) ↔ (idx (ix2 e 0)).toInt = (n.val : Int) ∧ c = q := by
  rw [resultIdx?_eq_some_iff]
  constructor
  · intro hall
    have h0 : scRow.start (ix2 e c) idx 0 + (scRow.window (ix2 e c) 0 : Int) = (n.val : Int) := hall 0
    have h1 : scRow.start (ix2 e c) idx 1 + (scRow.window (ix2 e c) 1 : Int) = (q.val : Int) := hall 1
    rw [scRow_start0, scRow_window0] at h0
    rw [scRow_start1, scRow_window1] at h1
    have h0' : (idx (ix2 e 0)).toInt = (n.val : Int) := by simpa using h0
    have h1' : (c.val : Int) = (q.val : Int) := by simpa using h1
    exact ⟨h0', Fin.ext (by exact_mod_cast h1')⟩
  · rintro ⟨h0, h1⟩ a
    match a with
    | ⟨0, _⟩ =>
      show scRow.start (ix2 e c) idx 0 + (scRow.window (ix2 e c) 0 : Int) = (n.val : Int)
      rw [scRow_start0, scRow_window0]
      show (idx (ix2 e 0)).toInt + ((0 : Nat) : Int) = (n.val : Int)
      rw [h0]; simp
    | ⟨1, _⟩ =>
      show scRow.start (ix2 e c) idx 1 + (scRow.window (ix2 e c) 1 : Int) = (q.val : Int)
      rw [scRow_start1, scRow_window1, h1]
      show (0 : Int) + (q.val : Int) = (q.val : Int)
      simp

/-- Slab rule, node axis: the window starts at the edge's node number, read signed. -/
theorem scSlab_start0 (idx : IVec Cert.KernelIdeal.S320000x1 32) (j : Cert.ReferenceIdeal.S320000x3x128.Idx) :
    scSlab.start j idx 0 = (idx (ix2 (j 0) 0)).toInt := by
  unfold ScatterDims.start
  rw [dif_pos (show (0 : Fin Cert.ReferenceIdeal.S10000x3x128.rank) ∈ scSlab.scatterDimsToOperandDims by decide)]
  have hsi : scSlab.siIdx j ⟨List.idxOf (0 : Fin Cert.ReferenceIdeal.S10000x3x128.rank) scSlab.scatterDimsToOperandDims,
      List.idxOf_lt_length_iff.2 (by decide)⟩ = ix2 (j 0) 0 := by
    funext b; refine Fin.ext ?_
    match b with
    | ⟨0, _⟩ => rfl
    | ⟨1, _⟩ => rfl
  rw [hsi]
  rfl

/-- Slab rule, space axis: the window starts at 0. -/
theorem scSlab_start1 (idx : IVec Cert.KernelIdeal.S320000x1 32) (j : Cert.ReferenceIdeal.S320000x3x128.Idx) :
    scSlab.start j idx 1 = 0 := by
  unfold ScatterDims.start
  rw [dif_neg (show ¬ (1 : Fin Cert.ReferenceIdeal.S10000x3x128.rank) ∈ scSlab.scatterDimsToOperandDims by decide)]

/-- Slab rule, column axis: the window starts at 0. -/
theorem scSlab_start2 (idx : IVec Cert.KernelIdeal.S320000x1 32) (j : Cert.ReferenceIdeal.S320000x3x128.Idx) :
    scSlab.start j idx 2 = 0 := by
  unfold ScatterDims.start
  rw [dif_neg (show ¬ (2 : Fin Cert.ReferenceIdeal.S10000x3x128.rank) ∈ scSlab.scatterDimsToOperandDims by decide)]

/-- Slab rule, node axis: the window is one node tall. -/
theorem scSlab_window0 (j : Cert.ReferenceIdeal.S320000x3x128.Idx) : scSlab.window j 0 = 0 := by
  unfold ScatterDims.window
  rw [dif_neg (show ¬ (0 : Fin Cert.ReferenceIdeal.S10000x3x128.rank) ∈ scSlab.sKept by decide)]

/-- Slab rule, space axis: the update entry's own space coordinate. -/
theorem scSlab_window1 (j : Cert.ReferenceIdeal.S320000x3x128.Idx) : scSlab.window j 1 = (j 1).val := by
  unfold ScatterDims.window
  rw [dif_pos (show (1 : Fin Cert.ReferenceIdeal.S10000x3x128.rank) ∈ scSlab.sKept by decide)]
  rfl

/-- Slab rule, column axis: the update entry's own column. -/
theorem scSlab_window2 (j : Cert.ReferenceIdeal.S320000x3x128.Idx) : scSlab.window j 2 = (j 2).val := by
  unfold ScatterDims.window
  rw [dif_pos (show (2 : Fin Cert.ReferenceIdeal.S10000x3x128.rank) ∈ scSlab.sKept by decide)]
  rfl

/-- A slab update entry `(e, k', h')` lands on the slab entry `(n, k, h)` exactly when edge `e`'s node number, read
    signed, is `n` and the space coordinates and the columns agree. -/
theorem scSlab_lands (idx : IVec Cert.KernelIdeal.S320000x1 32) (e : Fin 320000) (k' : Fin 3) (h' : Fin 128)
    (n : Fin 10000) (k : Fin 3) (h : Fin 128) :
    scSlab.resultIdx? (ix3 e k' h') idx = some (ix3 n k h) ↔ (idx (ix2 e 0)).toInt = (n.val : Int) ∧ k' = k ∧ h' = h := by
  rw [resultIdx?_eq_some_iff]
  constructor
  · intro hall
    have h0 : scSlab.start (ix3 e k' h') idx 0 + (scSlab.window (ix3 e k' h') 0 : Int) = (n.val : Int) := hall 0
    have h1 : scSlab.start (ix3 e k' h') idx 1 + (scSlab.window (ix3 e k' h') 1 : Int) = (k.val : Int) := hall 1
    have h2 : scSlab.start (ix3 e k' h') idx 2 + (scSlab.window (ix3 e k' h') 2 : Int) = (h.val : Int) := hall 2
    rw [scSlab_start0, scSlab_window0] at h0
    rw [scSlab_start1, scSlab_window1] at h1
    rw [scSlab_start2, scSlab_window2] at h2
    have h0' : (idx (ix2 e 0)).toInt = (n.val : Int) := by simpa using h0
    have h1' : (k'.val : Int) = (k.val : Int) := by simpa using h1
    have h2' : (h'.val : Int) = (h.val : Int) := by simpa using h2
    exact ⟨h0', Fin.ext (by exact_mod_cast h1'), Fin.ext (by exact_mod_cast h2')⟩
  · rintro ⟨h0, h1, h2⟩ a
    match a with
    | ⟨0, _⟩ =>
      show scSlab.start (ix3 e k' h') idx 0 + (scSlab.window (ix3 e k' h') 0 : Int) = (n.val : Int)
      rw [scSlab_start0, scSlab_window0]
      show (idx (ix2 e 0)).toInt + ((0 : Nat) : Int) = (n.val : Int)
      rw [h0]; simp
    | ⟨1, _⟩ =>
      show scSlab.start (ix3 e k' h') idx 1 + (scSlab.window (ix3 e k' h') 1 : Int) = (k.val : Int)
      rw [scSlab_start1, scSlab_window1, h1]
      show (0 : Int) + (k.val : Int) = (k.val : Int)
      simp
    | ⟨2, _⟩ =>
      show scSlab.start (ix3 e k' h') idx 2 + (scSlab.window (ix3 e k' h') 2 : Int) = (h.val : Int)
      rw [scSlab_start2, scSlab_window2, h2]
      show (0 : Int) + (h.val : Int) = (h.val : Int)
      simp

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Scatter-adding flat rows and then cutting each row into 3 × 128 is scatter-adding the slabs, when the update
    arrays hold the same numbers in the two layouts and both start from the same constant. -/
theorem scatter_flat (z : EReal) (Z2 : Cert.Msg.A2 10000 384) (Z3 : Cert.Msg.A3 10000 3 128)
    (hZ2 : ∀ i, Z2 i = z) (hZ3 : ∀ i, Z3 i = z)
    (idx : IVec Cert.KernelIdeal.S320000x1 32) (U2 : Cert.Msg.A2 320000 384) (U3 : Cert.Msg.A3 320000 3 128)
    (hU : ∀ (e : Fin 320000) (k : Fin 3) (h : Fin 128), U2 (ix2 e (Cert.Msg.flat3 k h)) = U3 (ix3 e k h)) :
    shapeCast Cert.KernelIdeal.S10000x3x128
        (Host.scatterAdd (F := Ideal) (φ := .f32) Cert.KernelIdeal.scatter_S10000x384_S320000x1_S320000x384_1_0_0_1 Z2 idx U2)
        Cert.KernelIdeal.Facts₀.shapeCasts_S10000x384_S10000x3x128
      = Host.scatterAdd (F := Ideal) (φ := .f32) Cert.ReferenceIdeal.scatter_S10000x3x128_S320000x1_S320000x3x128_12_0_0_1 Z3 idx U3 := by
  -- entry by entry: entry (n, k, h) of the cut-up flat result is the flat result's entry (n, k·128 + h)
  funext i
  obtain ⟨n, k, h, rfl⟩ : ∃ n k h, i = ix3 n k h := ⟨i 0, i 1, i 2, eq_ix3 i⟩
  rw [shapeCast_apply _ _ (ix3 n k h) (ix2 n (Cert.Msg.flat3 k h)) (by
    rw [Shape.rowMajor_val_two, Shape.rowMajor_val_three]
    show n.val * 384 + (k.val * 128 + h.val) = (n.val * 3 + k.val) * 128 + h.val
    omega)]
  show Ideal.hostScatterAdd scRow Z2 idx U2 (ix2 n (Cert.Msg.flat3 k h)) = Ideal.hostScatterAdd scSlab Z3 idx U3 (ix3 n k h)
  -- each side is the start constant plus the sum of the update entries landing on the entry
  unfold Ideal.hostScatterAdd
  rw [hZ2, hZ3]
  refine congrArg (fun t => z + t) ?_
  -- sum edge by edge: of edge `e`'s update row only the entry in the target's own position can land, and it lands
  -- exactly when `e`'s node number is `n`, in either layout
  rw [Finset.sum_filter, Finset.sum_filter, sum_idx2, sum_idx3]
  refine Finset.sum_congr rfl fun e _ => ?_
  simp only [scRow_lands, scSlab_lands]
  by_cases hA : (idx (ix2 e 0)).toInt = (n.val : Int)
  · simp only [hA, true_and]
    rw [Finset.sum_ite_eq' Finset.univ (Cert.Msg.flat3 k h) (fun c => U2 (ix2 e c))]
    rw [if_pos (Finset.mem_univ _),
      Finset.sum_eq_single k (fun b _ hb => Finset.sum_eq_zero fun c _ => if_neg fun hc => hb hc.1)
        (fun hk => absurd (Finset.mem_univ _) hk),
      Finset.sum_eq_single h (fun c _ hc => if_neg fun hh => hc hh.2) (fun hh => absurd (Finset.mem_univ _) hh),
      if_pos ⟨rfl, rfl⟩]
    exact hU e k h
  · simp only [hA, false_and, if_false, Finset.sum_const_zero]

end Cert.Rows

end
-- ==== Proof.Bridge.lean ====
/-
  The kernel program's two results are the reference program's two results, as functions of the same arguments.

  Both programs cut the same source and target node numbers out of the edge list, by the same operations. Both
  gather the node projection's rows by source; the node projection is the same array on both sides; so the message
  array is the same, and the scalar messages, scatter-added by target with the same rule, are the same result.
  For the vector result the kernel program works on rows of 384 (the three space coordinates laid flat) and cuts the
  scatter-added rows into 3 × 128 at the end, while the reference works on 3 × 128 slabs throughout: gathering and
  scatter-adding whole rows commute with the flattening, and entry (k, h) of a slab is column k · 128 + h of the row.
-/
import proofs.«180632_j73641509257758_1_alg».proof.Proof.KernelValue
import proofs.«180632_j73641509257758_1_alg».proof.Proof.RefValue
import proofs.«180632_j73641509257758_1_alg».proof.Proof.Rows

set_option maxRecDepth 16384

noncomputable section

namespace Cert.Bridge

open Idealize.ShloMosaic Idealize.ShloMosaic.TcCoe Idealize.ShloMosaic.ValueIdx Idealize.SL.Sem
open Cert.KernelIdeal.KernelValue Cert.ReferenceIdeal.Read Cert.ReferenceIdeal.RefValue

/-! ## The node numbers and the zero arrays are the same terms on both sides -/

theorem src_eq (e : IVec Cert.KernelIdeal.S2x320000 32) : val_main_v32 (F := Ideal) e = srcIdx e := by
  unfold val_main_v32 val_main_v31 val_main_v30 val_main_v29 val_main_v28 val_main_v27 val_main_v24 val_main_v23
    val_main_c val_main_c_0 srcIdx
  rfl

theorem src_eq' (e : IVec Cert.KernelIdeal.S2x320000 32) : val_main_v45 (F := Ideal) e = srcIdx e := by
  unfold val_main_v45 val_main_v44 val_main_v43 val_main_v42 val_main_v41 val_main_v40 val_main_v24 val_main_v23
    val_main_c_1 val_main_c_2 srcIdx
  rfl

theorem dst_eq (e : IVec Cert.KernelIdeal.S2x320000 32) : val_main_v59 (F := Ideal) e = dstIdx e := by
  unfold val_main_v59 val_main_v26 val_main_v25 dstIdx
  rfl

theorem dst_eq' (e : IVec Cert.KernelIdeal.S2x320000 32) : val_main_v62 (F := Ideal) e = dstIdx e := by
  unfold val_main_v62 val_main_v26 val_main_v25 dstIdx
  rfl

/-! ## The vector messages in the two layouts -/

/-- Column k · 128 + h of the flat vector messages is entry (k, h) of the slab, when the gathered vector features
    agree in the two layouts. -/
theorem flat_cube (M vs2 : Cert.Msg.A2 320000 384) (vs3 : Cert.Msg.A3 320000 3 128) (ev : Cert.Msg.A2 320000 3)
    (hv : ∀ (e : Fin 320000) (k : Fin 3) (h : Fin 128), vs2 (ix2 e (Cert.Msg.flat3 k h)) = vs3 (ix3 e k h))
    (e : Fin 320000) (k : Fin 3) (h : Fin 128) :
    Cert.Msg.vecFlat M vs2 ev (ix2 e (Cert.Msg.flat3 k h)) = Cert.Msg.vecCube M vs3 ev (ix3 e k h) := by
  have hk : (⟨(k.val * 128 + h.val) / 128, by omega⟩ : Fin 3) = k := Fin.ext (by show (k.val * 128 + h.val) / 128 = k.val; omega)
  have hh : (⟨(k.val * 128 + h.val) % 128, Nat.mod_lt _ (by decide)⟩ : Fin 128) = h :=
    Fin.ext (by show (k.val * 128 + h.val) % 128 = h.val; omega)
  show Cert.Msg.vecEntry (Cert.Msg.row M e) (vs2 (ix2 e (Cert.Msg.flat3 k h)))
      (ev (ix2 e ⟨(k.val * 128 + h.val) / 128, _⟩)) ⟨(k.val * 128 + h.val) % 128, _⟩
    = Cert.Msg.vecEntry (Cert.Msg.row M e) (vs3 (ix3 e k h)) (ev (ix2 e k)) h
  rw [hv, hk, hh]

/-! ## The two results -/

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's message array is the reference's. -/
theorem msg_eq : val_main_v34 (F := Ideal) (a0 m c) (a2 m c) (a3 m c) (a5 m c) (a6 m c) (a7 m c) (a8 m c) (a9 m c) (a10 m c) (a11 m c) (a12 m c) (a13 m c) (a14 m c) (a15 m c) = msgK m c := by
  rw [ref_msg]
  unfold val_main_v33
  rw [ref_node, src_eq, ← Cert.Rows.gather_rule_eq]
  rfl

/-- The first result. -/
theorem dx_bridge :
    (Cert.KernelIdeal.Gen.W5 m ρ c (Proc.devRef .tc Cert.KernelIdeal.main_v28) : FVec Ideal Cert.KernelIdeal.S10000x128 .f32)
      = val_main_v60 (F := Ideal) (a0 m c) (a2 m c) (a3 m c) (a5 m c) (a6 m c) (a7 m c) (a8 m c) (a9 m c) (a10 m c) (a11 m c) (a12 m c) (a13 m c) (a14 m c) (a15 m c) := by
  rw [dx_val]
  unfold val_main_v60
  rw [ref_scal, msg_eq, dst_eq, ← Cert.Rows.scatter_rule_eq]
  rfl

/-- The second result. -/
theorem dvec_bridge :
    (Cert.KernelIdeal.Gen.W5 m ρ c (Proc.devRef .tc Cert.KernelIdeal.main_v32) : FVec Ideal Cert.KernelIdeal.S10000x3x128 .f32)
      = val_main_v63 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  rw [dvec_val]
  unfold val_main_v63
  rw [ref_vec, msg_eq, dst_eq']
  unfold val_main_v46
  rw [src_eq']
  refine Cert.Rows.scatter_flat (Ideal.ofBits .f32 0x00000000#32) _ _ (fun _ => rfl) (fun _ => rfl) (dstIdx (a15 m c)) _ _ ?_
  intro e k h
  refine flat_cube (msgK m c) (vecSrcK m c) _ (a4 m c) ?_ e k h
  intro e k h
  exact (Cert.Rows.gather_flat (a1 m c) (srcIdx (a15 m c)) (ix3 e k h)).symm

end Cert.Bridge

end
-- ==== Proof.lean ====
/-
  An equivariant message-passing layer over a graph of 10000 nodes and 320000 edges, computed two ways.

  Both programs compute, on the extended reals: the node projection xh = silu(x · Wx1 + bx1) · Wx2 + bx2 (silu z =
  z · σ(z)); for every edge the gate (edge_rbf · Wr + br) · (silu(weight · Wi1 + bi1) · Wi2 + bi2) and the message
  m = xh[source] · gate; the scalar message, m's first third; the vector message per space coordinate,
  (vec[source] · (m's second third · c₃) + m's last third · direction) · c_h, where c₃ and c_h are the binary32
  words nearest 1/√3 and 1/√128, the same two words in both programs; and the two results, the scalar and the vector
  messages summed over the edges that end at each node.

  One program runs the node projection and the edge messages as two tiled kernels (blocks of 1000 nodes, blocks of
  1280 edges, the vector features and messages laid flat as rows of 384), with the gathers by source and the sums by
  target between and after them; the other is plain array code. On the extended reals a change of float format is
  the identity, a kernel's matrix product into a zero accumulator and the array code's contraction are the same
  sum, and the logistic function is 1 / (1 + e^(-z)) in either spelling. Every product and sum is applied in the
  same order by both programs, so no law of arithmetic is used and the inputs' finiteness is never opened: the
  proof is the reading of each operation at an index (Spec, NodeBlock / NodeValue, EdgeBlock / EdgeValue, RefValue),
  the fold of the host stretches around the two kernels (KernelValue), and the two layouts of a node's 3 × 128
  vector feature under a gather and a scatter-add of whole rows (Rows, Bridge).

  The two programs' frames are the generated ones; the reference's frame is its generated run with the results
  dropped; the idealization rewrote no operation, so there is nothing to preserve.
-/
import proofs.«180632_j73641509257758_1_alg».proof.Defs
import proofs.«180632_j73641509257758_1_alg».proof.Proof.Gen.Kernel
import proofs.«180632_j73641509257758_1_alg».proof.Proof.Gen.Kernel.Skeleton
import proofs.«180632_j73641509257758_1_alg».proof.Proof.Gen.Kernel.Launch
import proofs.«180632_j73641509257758_1_alg».proof.Proof.Gen.Kernel.Points
import proofs.«180632_j73641509257758_1_alg».proof.Proof.Gen.Kernel.Frame
import proofs.«180632_j73641509257758_1_alg».proof.Proof.Gen.KernelIdeal
import proofs.«180632_j73641509257758_1_alg».proof.Proof.Gen.KernelIdeal.Skeleton
import proofs.«180632_j73641509257758_1_alg».proof.Proof.Gen.KernelIdeal.Launch
import proofs.«180632_j73641509257758_1_alg».proof.Proof.Gen.KernelIdeal.Points
import proofs.«180632_j73641509257758_1_alg».proof.Proof.Gen.KernelIdeal.Frame
import proofs.«180632_j73641509257758_1_alg».proof.Proof.Gen.ReferenceIdeal
import proofs.«180632_j73641509257758_1_alg».proof.Proof.Gen.ReferenceIdeal.Run
import proofs.«180632_j73641509257758_1_alg».proof.Proof.Gen.ReferenceIdeal.Read
import proofs.«180632_j73641509257758_1_alg».proof.Proof.Gen.Pre_finite_inputs
import proofs.«180632_j73641509257758_1_alg».proof.Proof.RunNamed
import proofs.«180632_j73641509257758_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two results: the kernel program's
    results, read back through its host stretches and kernels, are the reference's stages of the same arguments. -/
theorem algebraic : Cert.algebraic_KernelIdeal_ReferenceIdeal := by
  intro m ρ m' ρ' _ hagree
  refine ⟨fun c => Cert.KernelIdeal.Gen.W5 m ρ c (Proc.devRef .tc Cert.KernelIdeal.main_v28),
    fun c => Cert.KernelIdeal.Gen.W5 m ρ c (Proc.devRef .tc Cert.KernelIdeal.main_v32),
    Cert.KernelIdeal.RunNamed.run_named m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15⟩ := hagree c
  refine ⟨(h c).1.trans ?_, (h c).2.1.trans ?_, (h c).2.2⟩
  · refine (Cert.ReferenceIdeal.Read.val_main_v60_eq (F := Ideal) _ _ _ _ _ _ _ _ _ _ _ _ _ _).trans ?_
    rw [h0, h2, h3, h5, h6, h7, h8, h9, h10, h11, h12, h13, h14, h15]
    exact (Cert.Bridge.dx_bridge m ρ c).symm
  · refine (Cert.ReferenceIdeal.Read.val_main_v63_eq (F := Ideal) m' c).trans ?_
    rw [h0, h1, h2, h3, h4, h5, h6, h7, h8, h9, h10, h11, h12, h13, h14, h15]
    exact (Cert.Bridge.dvec_bridge m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
